-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2x4x49152x128 : Shape := ⟨5, ![2, 2, 4, 49152, 128]⟩
abbrev S49152 : Shape := ⟨1, ![49152]⟩
abbrev S128x128 : Shape := ⟨2, ![128, 128]⟩
abbrev S128 : Shape := ⟨1, ![128]⟩
abbrev S_ : Shape := ⟨0, ![]⟩

class Facts : Prop where
  bcast_S_S2x2x4x49152x128 : S_.BroadcastsInDim S2x2x4x49152x128 (![] : Fin 0 → Fin S2x2x4x49152x128.rank)
  reducesTo_S2x2x4x49152x128_S_d0_1_2_3_4 : S2x2x4x49152x128.ReducesTo [0, 1, 2, 3, 4] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S49152 : S_.BroadcastsInDim S49152 (![] : Fin 0 → Fin S49152.rank)
  reducesTo_S49152_S_d0 : S49152.ReducesTo [0] S_

variable [Facts]

def fn_part1 {F : FTy → Type} [FloatOps F] (main_arg1 : IVec S49152 32) (main_v13 : IVec S_ 1) (main_v15 : IVec S49152 1) (main_c_5 : IVec S_ 32) : IVec S_ 1 :=
  let main_v16 : IVec S49152 32 := broadcastInDim S49152 ![] bcast_S_S49152 main_c_5
  let main_v17 : IVec S49152 1 := cmpi .slt main_arg1 main_v16
  let main_v18 : IVec S49152 1 := andi main_v15 main_v17
  let main_c_6 : IVec S_ 1 := constantI S_ 1 1#1
  let main_v19 : IVec S_ 1 := (fun x v => Host.reduce IntOp.andi x v reducesTo_S49152_S_d0 h_S_) main_v18 main_c_6
  let main_v20 : IVec S_ 1 := andi main_v13 main_v19
  main_v20

def fn {F : FTy → Type} [FloatOps F] (main_arg0 : FVec F S2x2x4x49152x128 .f32) (main_arg1 : IVec S49152 32) (main_arg2 : FVec F S128x128 .f32) (main_arg3 : FVec F S128 .f32) : IVec S_ 1 :=
  let main_v0 : FVec F S2x2x4x49152x128 .f32 := Host.absf main_arg0
  let main_cst : FVec F S_ .f32 := constant S_ .f32 0x7F800000#32
  let main_v1 : FVec F S2x2x4x49152x128 .f32 := broadcastInDim S2x2x4x49152x128 ![] bcast_S_S2x2x4x49152x128 main_cst
  let main_v2 : IVec S2x2x4x49152x128 1 := cmpf .olt main_v0 main_v1
  let main_c : IVec S_ 1 := constantI S_ 1 1#1
  let main_v3 : IVec S_ 1 := (fun x v => Host.reduce IntOp.andi x v reducesTo_S2x2x4x49152x128_S_d0_1_2_3_4 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S49152 32 := broadcastInDim S49152 ![] bcast_S_S49152 main_c_4
  let main_v15 : IVec S49152 1 := cmpi .sge main_arg1 main_v14
  let main_c_5 : IVec S_ 32 := constantI S_ 32 12288#32
  fn_part1 (F := F) main_arg1 main_v13 main_v15 main_c_5
-- ==== Kernel.lean ====
abbrev S2x2x4x49152x128 : Shape := ⟨5, ![2, 2, 4, 49152, 128]⟩
abbrev S49152 : Shape := ⟨1, ![49152]⟩
abbrev S128x128 : Shape := ⟨2, ![128, 128]⟩
abbrev S128 : Shape := ⟨1, ![128]⟩
abbrev S_ : Shape := ⟨0, ![]⟩
abbrev S1x49152 : Shape := ⟨2, ![1, 49152]⟩
abbrev S16x49152x128 : Shape := ⟨3, ![16, 49152, 128]⟩
abbrev S49152x16x128 : Shape := ⟨3, ![49152, 16, 128]⟩
abbrev S49152x2048 : Shape := ⟨2, ![49152, 2048]⟩
abbrev S12288 : Shape := ⟨1, ![12288]⟩
abbrev S49152x1 : Shape := ⟨2, ![49152, 1]⟩
abbrev S12288x1 : Shape := ⟨2, ![12288, 1]⟩
abbrev S12288x2048 : Shape := ⟨2, ![12288, 2048]⟩
abbrev S512x2048 : Shape := ⟨2, ![512, 2048]⟩
abbrev S1x512 : Shape := ⟨2, ![1, 512]⟩
abbrev S1024x1 : Shape := ⟨2, ![1024, 1]⟩
abbrev S1024x2048 : Shape := ⟨2, ![1024, 2048]⟩
abbrev S1024x512 : Shape := ⟨2, ![1024, 512]⟩
abbrev S12288x16x128 : Shape := ⟨3, ![12288, 16, 128]⟩
abbrev S16x12288x128 : Shape := ⟨3, ![16, 12288, 128]⟩
abbrev S1x128 : Shape := ⟨2, ![1, 128]⟩
abbrev S1x4096x128 : Shape := ⟨3, ![1, 4096, 128]⟩
abbrev S4096x128 : Shape := ⟨2, ![4096, 128]⟩
abbrev S2x2x4x12288x128 : Shape := ⟨5, ![2, 2, 4, 12288, 128]⟩

abbrev nBuf : Space → Nat
  | .hbm => 38
  | .vmem => 14
  | .smem => 0
  | _ => 0

abbrev bufTy : (tb : Table) → Fin (tcTables nBuf tb) → BufTy
  | .hbm, ⟨0, _⟩ => ⟨S2x2x4x49152x128, .f32⟩
  | .hbm, ⟨1, _⟩ => ⟨S49152, .i32⟩
  | .hbm, ⟨2, _⟩ => ⟨S128x128, .f32⟩
  | .hbm, ⟨3, _⟩ => ⟨S128, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S49152, .i32⟩
  | .hbm, ⟨8, _⟩ => ⟨S49152, .i32⟩
  | .hbm, ⟨9, _⟩ => ⟨S_, .i32⟩
  | .hbm, ⟨10, _⟩ => ⟨S49152, .i32⟩
  | .hbm, ⟨11, _⟩ => ⟨S49152, .i32⟩
  | .hbm, ⟨12, _⟩ => ⟨S1x49152, .i32⟩
  | .hbm, ⟨13, _⟩ => ⟨S2x2x4x49152x128, .bf16⟩
  | .hbm, ⟨14, _⟩ => ⟨S16x49152x128, .bf16⟩
  | .hbm, ⟨15, _⟩ => ⟨S49152x16x128, .bf16⟩
  | .hbm, ⟨16, _⟩ => ⟨S49152x2048, .bf16⟩
  | .hbm, ⟨17, _⟩ => ⟨S_, .f32⟩
  | .hbm, ⟨18, _⟩ => ⟨S49152, .f32⟩
  | .hbm, ⟨19, _⟩ => ⟨S_, .f32⟩
  | .hbm, ⟨20, _⟩ => ⟨S12288, .f32⟩
  | .hbm, ⟨21, _⟩ => ⟨S49152x1, .i32⟩
  | .hbm, ⟨22, _⟩ => ⟨S12288, .f32⟩
  | .hbm, ⟨23, _⟩ => ⟨S_, .f32⟩
  | .hbm, ⟨24, _⟩ => ⟨S_, .f32⟩
  | .hbm, ⟨25, _⟩ => ⟨S12288, .f32⟩
  | .hbm, ⟨26, _⟩ => ⟨S12288, .f32⟩
  | .hbm, ⟨27, _⟩ => ⟨S_, .f32⟩
  | .hbm, ⟨28, _⟩ => ⟨S12288, .f32⟩
  | .hbm, ⟨29, _⟩ => ⟨S12288, .f32⟩
  | .hbm, ⟨30, _⟩ => ⟨S12288x1, .f32⟩
  | .hbm, ⟨31, _⟩ => ⟨S12288x2048, .f32⟩
  | .hbm, ⟨32, _⟩ => ⟨S12288x16x128, .f32⟩
  | .hbm, ⟨33, _⟩ => ⟨S16x12288x128, .f32⟩
  | .hbm, ⟨34, _⟩ => ⟨S128x128, .f32⟩
  | .hbm, ⟨35, _⟩ => ⟨S1x128, .f32⟩
  | .hbm, ⟨36, _⟩ => ⟨S16x12288x128, .f32⟩
  | .hbm, ⟨37, _⟩ => ⟨S2x2x4x12288x128, .f32⟩
  | .local _ .vmem, ⟨0, _⟩ => ⟨S512x2048, .bf16⟩
  | .local _ .vmem, ⟨1, _⟩ => ⟨S512x2048, .bf16⟩
  | .local _ .vmem, ⟨2, _⟩ => ⟨S1x512, .i32⟩
  | .local _ .vmem, ⟨3, _⟩ => ⟨S1x512, .i32⟩
  | .local _ .vmem, ⟨4, _⟩ => ⟨S1024x1, .f32⟩
  | .local _ .vmem, ⟨5, _⟩ => ⟨S1024x1, .f32⟩
  | .local _ .vmem, ⟨6, _⟩ => ⟨S1024x2048, .f32⟩
  | .local _ .vmem, ⟨7, _⟩ => ⟨S1024x2048, .f32⟩
  | .local _ .vmem, ⟨8, _⟩ => ⟨S1x4096x128, .f32⟩
  | .local _ .vmem, ⟨9, _⟩ => ⟨S1x4096x128, .f32⟩
  | .local _ .vmem, ⟨10, _⟩ => ⟨S128x128, .f32⟩
  | .local _ .vmem, ⟨11, _⟩ => ⟨S1x128, .f32⟩
  | .local _ .vmem, ⟨12, _⟩ => ⟨S1x4096x128, .f32⟩
  | .local _ .vmem, ⟨13, _⟩ => ⟨S1x4096x128, .f32⟩
  | _, _ => ⟨S2x2x4x49152x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_call1_v0 : Ref sig .tc := ⟨.hbm, 24, rfl⟩
abbrev main_call1_v1 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![12, 96], ![false, false]⟩

def k0_cond2 (i : grid0.Coords) : BitVec 1 :=
  let arg1 : BitVec 32 := BitVec.ofNat 32 (i 1).val
  let c95_i32 : BitVec 32 := 95#32
  let v23 : BitVec 1 := Scalar.cmpi .eq arg1 c95_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev grid1 : Pipeline.Grid := ⟨2, ![16, 3], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S_S49152 : S_.BroadcastsInDim S49152 (![] : Fin 0 → Fin S49152.rank)
  shapeCasts_S49152_S1x49152 : S49152.ShapeCasts S1x49152
  bitsLt_bf16_f32 : FTy.bits .bf16 < FTy.bits .f32
  shapeCasts_S2x2x4x49152x128_S16x49152x128 : S2x2x4x49152x128.ShapeCasts S16x49152x128
  transposes_S16x49152x128_S49152x16x128_1_0_2 : S16x49152x128.Transposes [1, 0, 2] S49152x16x128
  shapeCasts_S49152x16x128_S49152x2048 : S49152x16x128.ShapeCasts S49152x2048
  bcast_S_S12288 : S_.BroadcastsInDim S12288 (![] : Fin 0 → Fin S12288.rank)
  bcast_S49152_S49152x1_0 : S49152.BroadcastsInDim S49152x1 (![0] : Fin 1 → Fin S49152x1.rank)
  shapeCasts_S12288_S12288x1 : S12288.ShapeCasts S12288x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  iota_S1024x1_d0_w32 : S1024x1.Iotas .tc 32 [0]
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  natLt_1_32 : 1 < 32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x2048 : S1024x1.Broadcasts S1024x2048
  shapeCasts_S12288x2048_S12288x16x128 : S12288x2048.ShapeCasts S12288x16x128
  transposes_S12288x16x128_S16x12288x128_1_0_2 : S12288x16x128.Transposes [1, 0, 2] S16x12288x128
  transposes_S128x128_S128x128_1_0 : S128x128.Transposes [1, 0] S128x128
  shapeCasts_S128_S1x128 : S128.ShapeCasts S1x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S4096x128_S1x4096x128 : S4096x128.ShapeCasts S1x4096x128
  shapeCasts_S16x12288x128_S2x2x4x12288x128 : S16x12288x128.ShapeCasts S2x2x4x12288x128
  scatter_S12288_S49152x1_S49152_n_0_0_1_wf : ScatterDims.WF S12288 S49152x1 S49152 [] [0] [0] 1
  dot_S1024x512_S512x2048_S1024x2048_1_0_0_1_n_n_wf : DotDims.WF S1024x512 S512x2048 S1024x2048 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S49152x2048.size a
  hwx0_0 : ∀ i : grid0.Coords, EltTy.bits .bf16 = 32 ∨ (Rect.block (s := S49152x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x49152.size a
  hwx0_1 : ∀ i : grid0.Coords, EltTy.bits .i32 = 32 ∨ (Rect.block (s := S1x49152) S1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S12288x1.size a
  hwx0_2 : ∀ i : grid0.Coords, EltTy.bits .f32 = 32 ∨ (Rect.block (s := S12288x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S12288x2048.size a
  hwx0_3 : ∀ i : grid0.Coords, EltTy.bits .f32 = 32 ∨ (Rect.block (s := S12288x2048) S1024x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x128.size a ≤ S16x12288x128.size a
  hwx1_0 : ∀ i : grid1.Coords, EltTy.bits .f32 = 32 ∨ (Rect.block (s := S16x12288x128) S1x4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096x128.size a ≤ S16x12288x128.size a
  hwx1_3 : ∀ i : grid1.Coords, EltTy.bits .f32 = 32 ∨ (Rect.block (s := S16x12288x128) S1x4096x128.size (cc1_transform_3 i) (hinb1_3 i)).WholeWords (EltTy.packing .f32)

variable [Facts₀]

def scatter_S12288_S49152x1_S49152_n_0_0_1 : ScatterDims S12288 S49152x1 S49152 where
  updateWindowDims := []
  insertedWindowDims := [0]
  scatterDimsToOperandDims := [0]
  indexVectorDim := 1
  wf := scatter_S12288_S49152x1_S49152_n_0_0_1_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v5) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x2048.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v16) S1x4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x2x4x49152x128 : Shape := ⟨5, ![2, 2, 4, 49152, 128]⟩
abbrev S49152 : Shape := ⟨1, ![49152]⟩
abbrev S128x128 : Shape := ⟨2, ![128, 128]⟩
abbrev S128 : Shape := ⟨1, ![128]⟩
abbrev S16x49152x128 : Shape := ⟨3, ![16, 49152, 128]⟩
abbrev S49152x16x128 : Shape := ⟨3, ![49152, 16, 128]⟩
abbrev S_ : Shape := ⟨0, ![]⟩
abbrev S12288x16x128 : Shape := ⟨3, ![12288, 16, 128]⟩
abbrev S49152x1 : Shape := ⟨2, ![49152, 1]⟩
abbrev S12288 : Shape := ⟨1, ![12288]⟩
abbrev S12288x1x1 : Shape := ⟨3, ![12288, 1, 1]⟩
abbrev S1x1x128 : Shape := ⟨3, ![1, 1, 128]⟩
abbrev S16x12288x128 : Shape := ⟨3, ![16, 12288, 128]⟩
abbrev S2x2x4x12288x128 : Shape := ⟨5, ![2, 2, 4, 12288, 128]⟩

abbrev nBuf : Space → Nat
  | .hbm => 29
  | .vmem => 0
  | .smem => 0
  | _ => 0

abbrev bufTy : (tb : Table) → Fin (tcTables nBuf tb) → BufTy
  | .hbm, ⟨0, _⟩ => ⟨S2x2x4x49152x128, .f32⟩
  | .hbm, ⟨1, _⟩ => ⟨S49152, .i32⟩
  | .hbm, ⟨2, _⟩ => ⟨S128x128, .f32⟩
  | .hbm, ⟨3, _⟩ => ⟨S128, .f32⟩
  | .hbm, ⟨4, _⟩ => ⟨S16x49152x128, .f32⟩
  | .hbm, ⟨5, _⟩ => ⟨S49152x16x128, .f32⟩
  | .hbm, ⟨6, _⟩ => ⟨S_, .f32⟩
  | .hbm, ⟨7, _⟩ => ⟨S12288x16x128, .f32⟩
  | .hbm, ⟨8, _⟩ => ⟨S49152x1, .i32⟩
  | .hbm, ⟨9, _⟩ => ⟨S12288x16x128, .f32⟩
  | .hbm, ⟨10, _⟩ => ⟨S_, .f32⟩
  | .hbm, ⟨11, _⟩ => ⟨S49152, .f32⟩
  | .hbm, ⟨12, _⟩ => ⟨S_, .f32⟩
  | .hbm, ⟨13, _⟩ => ⟨S12288, .f32⟩
  | .hbm, ⟨14, _⟩ => ⟨S49152x1, .i32⟩
  | .hbm, ⟨15, _⟩ => ⟨S12288, .f32⟩
  | .hbm, ⟨16, _⟩ => ⟨S_, .f32⟩
  | .hbm, ⟨17, _⟩ => ⟨S_, .f32⟩
  | .hbm, ⟨18, _⟩ => ⟨S12288, .f32⟩
  | .hbm, ⟨19, _⟩ => ⟨S12288, .f32⟩
  | .hbm, ⟨20, _⟩ => ⟨S12288x1x1, .f32⟩
  | .hbm, ⟨21, _⟩ => ⟨S12288x16x128, .f32⟩
  | .hbm, ⟨22, _⟩ => ⟨S12288x16x128, .f32⟩
  | .hbm, ⟨23, _⟩ => ⟨S12288x16x128, .f32⟩
  | .hbm, ⟨24, _⟩ => ⟨S1x1x128, .f32⟩
  | .hbm, ⟨25, _⟩ => ⟨S12288x16x128, .f32⟩
  | .hbm, ⟨26, _⟩ => ⟨S12288x16x128, .f32⟩
  | .hbm, ⟨27, _⟩ => ⟨S16x12288x128, .f32⟩
  | .hbm, ⟨28, _⟩ => ⟨S2x2x4x12288x128, .f32⟩
  | _, _ => ⟨S2x2x4x49152x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  shapeCasts_S2x2x4x49152x128_S16x49152x128 : S2x2x4x49152x128.ShapeCasts S16x49152x128
  transposes_S16x49152x128_S49152x16x128_1_0_2 : S16x49152x128.Transposes [1, 0, 2] S49152x16x128
  bcast_S_S12288x16x128 : S_.BroadcastsInDim S12288x16x128 (![] : Fin 0 → Fin S12288x16x128.rank)
  bcast_S49152_S49152x1_0 : S49152.BroadcastsInDim S49152x1 (![0] : Fin 1 → Fin S49152x1.rank)
  bcast_S_S49152 : S_.BroadcastsInDim S49152 (![] : Fin 0 → Fin S49152.rank)
  bcast_S_S12288 : S_.BroadcastsInDim S12288 (![] : Fin 0 → Fin S12288.rank)
  bcast_S12288_S12288x1x1_0 : S12288.BroadcastsInDim S12288x1x1 (![0] : Fin 1 → Fin S12288x1x1.rank)
  bcast_S12288x1x1_S12288x16x128_0_1_2 : S12288x1x1.BroadcastsInDim S12288x16x128 (![0, 1, 2] : Fin 3 → Fin S12288x16x128.rank)
  bcast_S128_S1x1x128_2 : S128.BroadcastsInDim S1x1x128 (![2] : Fin 1 → Fin S1x1x128.rank)
  bcast_S1x1x128_S12288x16x128_0_1_2 : S1x1x128.BroadcastsInDim S12288x16x128 (![0, 1, 2] : Fin 3 → Fin S12288x16x128.rank)
  transposes_S12288x16x128_S16x12288x128_1_0_2 : S12288x16x128.Transposes [1, 0, 2] S16x12288x128
  shapeCasts_S16x12288x128_S2x2x4x12288x128 : S16x12288x128.ShapeCasts S2x2x4x12288x128
  scatter_S12288x16x128_S49152x1_S49152x16x128_12_0_0_1_wf : ScatterDims.WF S12288x16x128 S49152x1 S49152x16x128 [1, 2] [0] [0] 1
  scatter_S12288_S49152x1_S49152_n_0_0_1_wf : ScatterDims.WF S12288 S49152x1 S49152 [] [0] [0] 1
  dot_S12288x16x128_S128x128_S12288x16x128_2_1_01_0_n_n_wf : DotDims.WF S12288x16x128 S128x128 S12288x16x128 [2] [1] [0, 1] [0] [] []

variable [Facts₀]

def scatter_S12288x16x128_S49152x1_S49152x16x128_12_0_0_1 : ScatterDims S12288x16x128 S49152x1 S49152x16x128 where
  updateWindowDims := [1, 2]
  insertedWindowDims := [0]
  scatterDimsToOperandDims := [0]
  indexVectorDim := 1
  wf := scatter_S12288x16x128_S49152x1_S49152x16x128_12_0_0_1_wf
def scatter_S12288_S49152x1_S49152_n_0_0_1 : ScatterDims S12288 S49152x1 S49152 where
  updateWindowDims := []
  insertedWindowDims := [0]
  scatterDimsToOperandDims := [0]
  indexVectorDim := 1
  wf := scatter_S12288_S49152x1_S49152_n_0_0_1_wf
def dot_S12288x16x128_S128x128_S12288x16x128_2_1_01_0_n_n : DotDims S12288x16x128 S128x128 S12288x16x128 where
  lhsContracting := [2]
  rhsContracting := [1]
  lhsNonContracting := [0, 1]
  rhsNonContracting := [0]
  lhsBatch := []
  rhsBatch := []
  wf := dot_S12288x16x128_S128x128_S12288x16x128_2_1_01_0_n_n_wf

class Facts : Prop extends Facts₀ where

variable [Facts]
-- ==== Proof.PoolData.lean ====
/-
  The pooling region (the first pallas_call) as data of the pipeline: grid (12, 96) over target tiles `tt` and
  source tiles `s`. At point (tt, s) the body holds a 1024 x 2048 accumulator in scratch: it is reset to zero when
  `s = 0`, then receives the product of the 1024 x 512 indicator matrix (row `r` of target tile `tt` against the 512
  parent ids of source tile `s`) with the 512 x 2048 block of the folded input; when `s = 95` the accumulator times
  the reciprocal-count column is stored to the output block `tt`. So the scratch after point `n` is the sum over the
  source tiles met since the last reset, and the output block is written exactly at the points `n % 96 = 95`.
-/
import proofs.«421746_j85023172592644_2_alg».proof.Proof.Gen.KernelIdeal.Launch
import proofs.«421746_j85023172592644_2_alg».proof.Proof.Gen.KernelIdeal.Skeleton
import proofs.«421746_j85023172592644_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator scratch, a whole scoped buffer the kernel keeps between points. -/
abbrev scM : Memref sig .tc .vmem S1024x2048 .f32 := Memref.whole cc0_scratch0

/-- THE ACCUMULATION: what the scratch holds after the body at position `n`. The body adds the point's indicator
    product to what it finds; at a point with `s = 0` (`n % 96 = 0`) it finds the zeros it has just stored, elsewhere
    what the point before left. -/
def accAt (c : Dev nD) : (n : ℕ) → n < cfg0.N → Vec F S1024x2048 .f32
  | 0, hn => k0_pay2 (grid0.coords ⟨0, hn⟩) (iblk V c 1 ⟨0, hn⟩) (iblk V c 0 ⟨0, hn⟩) (k0_pay1 (F := F))
  | n + 1, hn => k0_pay2 (grid0.coords ⟨n + 1, hn⟩) (iblk V c 1 ⟨n + 1, hn⟩) (iblk V c 0 ⟨n + 1, hn⟩)
      (if (n + 1) % 96 = 0 then k0_pay1 (F := F) else accAt c n (Nat.lt_of_succ_lt hn))

/-- What the accumulator holds when the body at position `n` loads it for the sum: zeros at a reset point, else what
    the point before left. -/
def accBefore (c : Dev nD) (n : ℕ) (hn : n < cfg0.N) : Vec F S1024x2048 .f32 :=
  if h : n % 96 = 0 then k0_pay1 (F := F) else accAt V c (n - 1) (Nat.lt_of_le_of_lt (Nat.sub_le _ _) hn)

theorem accAt_eq (c : Dev nD) (t : Fin cfg0.N) :
    accAt V c t.val t.isLt = k0_pay2 (grid0.coords t) (iblk V c 1 t) (iblk V c 0 t) (accBefore V c t.val t.isLt) := by
  obtain ⟨n, hn⟩ := t
  cases n with
  | zero => unfold accAt accBefore; rw [dif_pos (Nat.zero_mod _)]
  | succ n =>
    have e : accAt V c (n + 1) hn = k0_pay2 (grid0.coords ⟨n + 1, hn⟩) (iblk V c 1 ⟨n + 1, hn⟩) (iblk V c 0 ⟨n + 1, hn⟩)
        (if (n + 1) % 96 = 0 then k0_pay1 (F := F) else accAt V c n (Nat.lt_of_succ_lt hn)) := by
      rw [accAt]
    show accAt V c (n + 1) hn = _
    rw [e]; unfold accBefore
    by_cases h : (n + 1) % 96 = 0
    · rw [dif_pos h, if_pos h]
    · rw [dif_neg h, if_neg h]; rfl

/-- The scoped buffers of the core that are neither a staging buffer of this region nor its scratch (the second
    region's staging buffers), each whole at some contents: untouched by this region. -/
def restBufs (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The region invariant before position `n`: before the first point what the launch hands the region (every scoped
    buffer that is no staging buffer of the region at anything, the generator register at some state); afterwards the
    accumulator at what the point before left, the other scoped buffers at anything, the generator register. -/
def PhiS (c : Dev nD) : (n : ℕ) → n ≤ cfg0.N → sProp 𝕄
  | 0, _ => Pipeline.ΦA spec0 c
  | n + 1, hn => iprop(owns (c : Thread nD τ) scM fullShare (accAt V c n hn) ∗ restBufs (F := F) c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM fullShare (accAt V c n hn) ∗ restBufs (F := F) c ∗ (∃ r, prngReg c r)) := rfl

theorem PhiS_pos (c : Dev nD) (n : ℕ) (h : n ≤ cfg0.N) (hz : n ≠ 0) :
    PhiS V c n h = iprop(owns (c : Thread nD τ) scM fullShare (accAt V c (n - 1) (by omega)) ∗ restBufs (F := F) c ∗ (∃ r, prngReg c r)) := by
  cases n with
  | zero => exact absurd rfl hz
  | succ n => rfl

/-- The proof data of the pooling pipeline on core `c`: the arrays as the region finds them; after the body each input's
    buffer at its block, the output's at the accumulator times the reciprocal counts (consulted only where the body
    stores it, the points with `s = 95`); the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay3 (accAt V c t.val t.isLt) (iblk V c 2 t)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = k0_pay3 (accAt V c t.val t.isLt) (iblk V c 2 t) := by dsimp only [dat]

theorem Phi_castSucc (c : Dev nD) (t : Fin cfg0.N) :
    (dat V c).Φ t.castSucc = PhiS V c t.val (Nat.le_of_lt t.isLt) := by
  dsimp only [dat]; simp only [Fin.coe_castSucc]

theorem Phi_succ (c : Dev nD) (t : Fin cfg0.N) :
    (dat V c).Φ t.succ = PhiS V c (t.val + 1) t.isLt := rfl

end Cert.KernelIdeal.Pool

end
-- ==== Proof.ConvData.lean ====
/-
  The projection region (the second pallas_call) as data of the pipeline: grid (16, 3) over the 16 batch slices and
  three tiles of 4096 target rows. At every point the body multiplies the 4096 x 128 block of means by the 128 x 128
  transposed weight, adds the bias row, and stores the 4096 x 128 result block; nothing is kept between points.
-/
import proofs.«421746_j85023172592644_2_alg».proof.Proof.Gen.KernelIdeal.Launch
import proofs.«421746_j85023172592644_2_alg».proof.Proof.Gen.KernelIdeal.Skeleton
import proofs.«421746_j85023172592644_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the projection pipeline on core `c`: the arrays as the region finds them; after the body each
    input's buffer at its block and the output's at the body's one stored value of the three input blocks; the
    invariant the untouched scoped rest and generator register; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => k1_pay1 (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) :
    (dat V c).after 3 t = k1_pay1 (iblk V c 0 t) (iblk V c 1 t) (iblk V c 2 t) := by dsimp only [dat]

end Cert.KernelIdeal.Conv

end
-- ==== Proof.Fold.lean ====
/-
  The buffers' contents at each boundary of `main`: the launch memory, then each stretch of host operations applied in
  order, and at each launched region's exit its output array replaced by what the region's write-backs leave (every
  other buffer as it was at the region's entry).
-/
import proofs.«421746_j85023172592644_2_alg».proof.Proof.PoolData
import proofs.«421746_j85023172592644_2_alg».proof.Proof.ConvData

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)
/-- After the two integer constants. -/
abbrev W1 : Dev nD → Valuation τ sig (Elt F) := fun c => StableHlo.after hostOps0 (W0 m c)
/-- After the clamp of the parent ids. -/
abbrev W2 : Dev nD → Valuation τ sig (Elt F) := fun c => StableHlo.after hostOps0_1 (W1 m c)
/-- After the folding of the input and the count of each target's sources. -/
abbrev W3 : Dev nD → Valuation τ sig (Elt F) := fun c => StableHlo.after hostOps0_2 (W2 m c)
/-- After the lower bound on the counts. -/
abbrev W4 : Dev nD → Valuation τ sig (Elt F) := fun c => StableHlo.after hostOps0_3 (W3 m c)
/-- After the reciprocal counts (the pooling region's entry). -/
abbrev W5 : Dev nD → Valuation τ sig (Elt F) := fun c => StableHlo.after hostOps0_4 (W4 m c)
/-- The same read at the TensorCore's references (what the pooling region's proof data take). -/
abbrev V5 : (c : Dev nD) → (b : Ref sig .tc) → Buf (Elt F) ((c : Thread nD τ).loc b) := fun c b => W5 m c b
/-- At the pooling region's exit: its arrays at what the pipeline leaves, every other buffer as entered. -/
def W6 (c : Dev nD) : Valuation τ sig (Elt F) :=
  Pipeline.withArrays spec0 c (W5 m c) fun w => (Pool.dat (V5 m) c).arrAt w cfg0.N
abbrev V6 : (c : Dev nD) → (b : Ref sig .tc) → Buf (Elt F) ((c : Thread nD τ).loc b) := fun c b => W6 m c b
/-- After the unfolding of the pooled means and the transposed weight and bias row (the projection region's entry). -/
abbrev W7 : Dev nD → Valuation τ sig (Elt F) := fun c => StableHlo.after hostOps1 (W6 m c)
abbrev V7 : (c : Dev nD) → (b : Ref sig .tc) → Buf (Elt F) ((c : Thread nD τ).loc b) := fun c b => W7 m c b
/-- At the projection region's exit. -/
def W8 (c : Dev nD) : Valuation τ sig (Elt F) :=
  Pipeline.withArrays spec1 c (W7 m c) fun w => (Conv.dat (V7 m) c).arrAt w cfg1.N
abbrev V8 : (c : Dev nD) → (b : Ref sig .tc) → Buf (Elt F) ((c : Thread nD τ).loc b) := fun c b => W8 m c b
/-- After the last reshape (the return). -/
abbrev W9 : Dev nD → Valuation τ sig (Elt F) := fun c => StableHlo.after hostOps2 (W8 m c)

theorem W6_arr (c : Dev nD) (w : Fin cfg0.W) :
    W6 m c (Proc.devRef .tc (Pipeline.arrRef spec0 w)) = (Pool.dat (V5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
theorem W8_arr (c : Dev nD) (w : Fin cfg1.W) :
    W8 m c (Proc.devRef .tc (Pipeline.arrRef spec1 w)) = (Conv.dat (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb

end Cert.KernelIdeal.Run

end
-- ==== Proof.PoolBody.lean ====
/-
  The pooling region's body at every grid point against its proof data: the three ways the two conditionals fall
  (reset and accumulate; accumulate; accumulate and store the scaled accumulator), and the invariant at the two ends.
-/
import proofs.«421746_j85023172592644_2_alg».proof.Proof.PoolData
import Idealize.ShloMosaic.Lib.Pipeline.Value

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The two conditions of the body, in closed form over the grid -/

/-- The first conditional's condition (the source-tile coordinate is zero), as the body computes it. -/
abbrev condReset (i : grid0.Coords) : Prop :=
  (Scalar.cmpi .ne (Scalar.extui (Scalar.cmpi .eq (BitVec.ofNat 32 (i 1).val) 0#32)) 0#32) = 1#1
/-- It holds exactly at the points whose source tile is the first. -/
theorem hcondReset : ∀ t : Fin cfg0.N, condReset (grid0.coords t) ↔ t.val % 96 = 0 :=
  (by decide +kernel : ∀ t : Fin grid0.N, condReset (grid0.coords t) ↔ t.val % 96 = 0)

/-- The second conditional's condition (the source-tile coordinate is the last). -/
abbrev condStore (i : grid0.Coords) : Prop := k0_cond2 i = 1#1
/-- It holds exactly at the points whose source tile is the last. -/
theorem hcondStore : ∀ t : Fin cfg0.N, condStore (grid0.coords t) ↔ t.val % 96 = 95 :=
  (by decide +kernel : ∀ t : Fin grid0.N, condStore (grid0.coords t) ↔ t.val % 96 = 95)

/-! ## Where the windows are idle -/

/-- The three inputs are never idle. -/
theorem live_0 (t : Fin cfg0.N) : cfg0.idle 0 (grid0.coords t) = false := rfl
theorem live_1 (t : Fin cfg0.N) : cfg0.idle 1 (grid0.coords t) = false := rfl
theorem live_2 (t : Fin cfg0.N) : cfg0.idle 2 (grid0.coords t) = false := rfl
/-- The output is idle away from the last source tile, -/
theorem idle_3 : ∀ t : Fin cfg0.N, ¬t.val % 96 = 95 → cfg0.idle 3 (grid0.coords t) = true :=
  (by decide +kernel : ∀ t : Fin grid0.N, ¬t.val % 96 = 95 → cfg0.idle 3 (grid0.coords t) = true)
/-- is not written back there, -/
theorem noFlush_3 (t : Fin cfg0.N) (h : ¬t.val % 96 = 95) : (cfg0.win 3).flush t = false :=
  Bool.eq_false_iff.mpr fun hf => h ((flush0_3 t).mp hf)
/-- and is live at the last source tile. -/
theorem live_3 : ∀ t : Fin cfg0.N, t.val % 96 = 95 → cfg0.idle 3 (grid0.coords t) = false :=
  (by decide +kernel : ∀ t : Fin grid0.N, t.val % 96 = 95 → cfg0.idle 3 (grid0.coords t) = false)

/-! ## The staging memrefs at a point -/

abbrev ms_0 (t : Fin cfg0.N) : Memref sig .tc .vmem S512x2048 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x512 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1024x1 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1024x2048 .f32 := win0_3.stage (cfg0.slots t 3)
abbrev hs_3 (t : Fin cfg0.N) : (ms_3 t).IsWhole := hstage0_3 ((cfg0.slots t 3).cast nbuf0_3)

/-! ## Each input's staging buffer holds its block -/

theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## What the launch hands the region, with the accumulator as a memref -/

theorem PhiA_eq (c : Dev nD) :
    (Pipeline.ΦA spec0 c : sProp 𝕄)
      = iprop((∃ d, owns (c : Thread nD τ) scM fullShare d) ∗ restBufs (F := F) c ∗ (∃ r, prngReg c r)) := by
  unfold Pipeline.ΦA; rw [scopedRest0_eq]; simp only [scM, owns_whole, restBufs]
  exact BI.equiv_iff.mp ⟨BI.sep_assoc, BI.sep_assoc'⟩

/-! ## What the accumulator holds when a point's sum loads it -/

theorem accBefore_reset (c : Dev nD) (t : Fin cfg0.N) (h : t.val % 96 = 0) :
    accBefore V c t.val t.isLt = k0_pay1 (F := F) := by
  unfold accBefore; rw [dif_pos h]
theorem accBefore_carry (c : Dev nD) (t : Fin cfg0.N) (h : ¬t.val % 96 = 0) :
    accBefore V c t.val t.isLt = accAt V c (t.val - 1) (Nat.lt_of_le_of_lt (Nat.sub_le _ _) t.isLt) := by
  unfold accBefore; rw [dif_neg h]

/-! ## Whole-buffer accesses -/

/-- The body's accesses all start at the origin. -/
theorem zero_off : (![0, 0] : Fin 2 → Nat) = fun _ => 0 := funext fun a => by fin_cases a <;> rfl

/-- One store through the whole accumulator shape covers it. -/
theorem cover_whole (p : Vec F S1024x2048 .f32) (L : List (View.Piece (Elt F) S1024x2048 .f32)) (y : S1024x2048.Idx) :
    ∃ pc ∈ ((⟨Rect.unit (s := S1024x2048) ![0, 0] S1024x2048.size inb_S1024x2048_S1024x2048_0_0, p⟩ : View.Piece (Elt F) S1024x2048 .f32) :: L),
      y ∈ pc.1.set :=
  ⟨_, List.mem_cons_self, View.mem_set_unit_zero zero_off inb_S1024x2048_S1024x2048_0_0 y⟩

/-! ## The body's triple, case by case -/

set_option maxHeartbeats 1000000 in
/-- Neither conditional taken: the accumulator, found at `xs`, ends at `xs` plus the point's indicator product; the
    inputs and the output's buffer are as found. -/
theorem run_B (c : Dev nD) (i : grid0.Coords) (arg2 : Memref sig .tc .vmem S512x2048 .bf16) (harg2 : arg2.IsWhole) (arg3 : Memref sig .tc .vmem S1x512 .i32) (harg3 : arg3.IsWhole)
    (arg4 : Memref sig .tc .vmem S1024x1 .f32) (harg4 : arg4.IsWhole) (arg5 : Memref sig .tc .vmem S1024x2048 .f32) (harg5 : arg5.IsWhole)
    (arg6 : Memref sig .tc .vmem S1024x2048 .f32) (harg6 : arg6.IsWhole)
    (hc0 : ¬condReset i) (hc1 : ¬condStore i)
    (x0 : Vec F S512x2048 .bf16) (x1 : Vec F S1x512 .i32) (x2 : Vec F S1024x1 .f32) (x3 : Vec F S1024x2048 .f32)
    (xs : Vec F S1024x2048 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 i x1 x0 xs)) -∗ K ⟨⟩))
      ⊢ wp frame (wpE (defs₀ (F := F)) Variants.none c none) E (cc0__pool_kernel i arg2 harg2 arg3 harg3 arg4 harg4 arg5 harg5 arg6 harg6) K := by
  simp only [cc0__pool_kernel_eq_skeleton]; unfold cc0__pool_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [View.read_writes_eq_canon _ _ _ (cover_whole _ _), View.canon_unit_zero zero_off]
  simp only [View.readAt_eq_ld, harg2.read_unread, harg3.read_unread, harg6.read_unread,
    View.ld_unit_zero (S := S1x512) zero_off, View.ld_unit_zero (S := S512x2048) zero_off, View.ld_unit_zero (S := S1024x2048) zero_off]

set_option maxHeartbeats 1000000 in
/-- Only the second conditional taken: the accumulator, found at `xs`, ends at `xs` plus the point's indicator product,
    and the output's buffer at that sum times the reciprocal-count column; the inputs are as found. -/
theorem run_C (c : Dev nD) (i : grid0.Coords) (arg2 : Memref sig .tc .vmem S512x2048 .bf16) (harg2 : arg2.IsWhole) (arg3 : Memref sig .tc .vmem S1x512 .i32) (harg3 : arg3.IsWhole)
    (arg4 : Memref sig .tc .vmem S1024x1 .f32) (harg4 : arg4.IsWhole) (arg5 : Memref sig .tc .vmem S1024x2048 .f32) (harg5 : arg5.IsWhole)
    (arg6 : Memref sig .tc .vmem S1024x2048 .f32) (harg6 : arg6.IsWhole)
    (hc0 : ¬condReset i) (hc1 : condStore i)
    (x0 : Vec F S512x2048 .bf16) (x1 : Vec F S1x512 .i32) (x2 : Vec F S1024x1 .f32)
    (xs : Vec F S1024x2048 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 i x1 x0 xs) x2) ∗ owns (c : Thread nD τ) arg6 fullShare (k0_pay2 i x1 x0 xs)) -∗ K ⟨⟩))
      ⊢ wp frame (wpE (defs₀ (F := F)) Variants.none c none) E (cc0__pool_kernel i arg2 harg2 arg3 harg3 arg4 harg4 arg5 harg5 arg6 harg6) K := by
  simp only [cc0__pool_kernel_eq_skeleton]; unfold cc0__pool_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (cover_whole _ _), View.canon_unit_zero zero_off]
    simp only [View.readAt_eq_ld, harg2.read_unread, harg3.read_unread, harg4.read_unread, harg6.read_unread,
      View.readCov_unit_zero (S := S1024x2048) _ zero_off,
      View.ld_unit_zero (S := S1x512) zero_off, View.ld_unit_zero (S := S512x2048) zero_off, View.ld_unit_zero (S := S1024x2048) zero_off,
      View.ld_unit_zero (S := S1024x1) zero_off]
  iexists _; isplitr
  swap; · iexact HS
  ipureintro
  sl_unfold_run_names
  rw [View.read_writes_eq_canon _ _ _ (cover_whole _ _), View.canon_unit_zero zero_off]
  simp only [View.readAt_eq_ld, harg2.read_unread, harg3.read_unread, harg6.read_unread,
    View.ld_unit_zero (S := S1x512) zero_off, View.ld_unit_zero (S := S512x2048) zero_off, View.ld_unit_zero (S := S1024x2048) zero_off]

set_option maxHeartbeats 1000000 in
/-- Only the first conditional taken: the accumulator, found at anything, is zeroed and ends at the point's indicator
    product added to zeros; the inputs and the output's buffer are as found. -/
theorem run_A (c : Dev nD) (i : grid0.Coords) (arg2 : Memref sig .tc .vmem S512x2048 .bf16) (harg2 : arg2.IsWhole) (arg3 : Memref sig .tc .vmem S1x512 .i32) (harg3 : arg3.IsWhole)
    (arg4 : Memref sig .tc .vmem S1024x1 .f32) (harg4 : arg4.IsWhole) (arg5 : Memref sig .tc .vmem S1024x2048 .f32) (harg5 : arg5.IsWhole)
    (arg6 : Memref sig .tc .vmem S1024x2048 .f32) (harg6 : arg6.IsWhole)
    (hc0 : condReset i) (hc1 : ¬condStore i)
    (x0 : Vec F S512x2048 .bf16) (x1 : Vec F S1x512 .i32) (x2 : Vec F S1024x1 .f32) (x3 : Vec F S1024x2048 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 i x1 x0 (k0_pay1 (F := F)))) -∗ K ⟨⟩))
      ⊢ wp frame (wpE (defs₀ (F := F)) Variants.none c none) E (cc0__pool_kernel i arg2 harg2 arg3 harg3 arg4 harg4 arg5 harg5 arg6 harg6) K := by
  simp only [cc0__pool_kernel_eq_skeleton]; unfold cc0__pool_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_run_names
  rw [View.read_writes_eq_canon _ _ _ (cover_whole _ _), View.canon_cons_unit_zero (S := S1024x2048) zero_off]
  simp only [View.readAt_eq_ld, harg2.read_unread, harg3.read_unread,
    View.readCov_unit_zero (S := S1024x2048) _ zero_off,
    View.ld_unit_zero (S := S1x512) zero_off, View.ld_unit_zero (S := S512x2048) zero_off, View.ld_unit_zero (S := S1024x2048) zero_off]

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point. The inputs' buffers hold their blocks; the point's source tile says which conditionals are
    taken. At the first source tile the accumulator is reset, whatever it held, and ends at the indicator product added
    to zeros; elsewhere it is found at what the point before left and ends at that plus the product. The output's buffer
    is handed back untouched except at the last source tile, where it ends at the new accumulator times the reciprocal
    counts. The other scoped buffers, the generator register and what the core owes pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [Phi_succ, PhiS_succ]
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  have hN : t.val < 1152 := lt_of_lt_of_eq t.isLt (show cfg0.N = 1152 from N_0)
  by_cases h0 : t.val % 96 = 0
  · have h1 : ¬t.val % 96 = 95 := by omega
    rw [Dat.leavesExact_idle (dat V c) 3 t (idle_3 t h1) (noFlush_3 t h1)]
    rw [accAt_eq V c t, accBefore_reset V c t h0]
    by_cases hz : t.val = 0
    · rw [Phi_castSucc, PhiS_zero V c _ _ hz, PhiA_eq]
      iintro ⟨⟨HS, Hr, Hg⟩, Ho, ⟨%d0, H0⟩, ⟨%d1, H1⟩, ⟨%d2, H2⟩, ⟨%d3, H3⟩⟩
      iapply (run_A c (grid0.coords t) _ _ _ _ _ _ _ _ _ _ ((hcondReset t).mpr h0) (fun h => h1 ((hcondStore t).mp h))
        (iblk V c 0 t) (iblk V c 1 t) (iblk V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3
    · rw [Phi_castSucc, PhiS_pos V c _ _ hz]
      iintro ⟨⟨HS, Hr, Hg⟩, Ho, ⟨%d0, H0⟩, ⟨%d1, H1⟩, ⟨%d2, H2⟩, ⟨%d3, H3⟩⟩
      iapply (run_A c (grid0.coords t) _ _ _ _ _ _ _ _ _ _ ((hcondReset t).mpr h0) (fun h => h1 ((hcondStore t).mp h))
        (iblk V c 0 t) (iblk V c 1 t) (iblk V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 96 = 95
    · rw [show (dat V c).leavesExact 3 t = owns (c : Thread nD τ) (ms_3 t) fullShare ((dat V c).after 3 t) from by
        unfold Dat.leavesExact; rw [live_3 t h1], after_3]
      rw [accAt_eq V c t, accBefore_carry V c t h0]
      rw [Phi_castSucc, PhiS_pos V c _ _ hz]
      iintro ⟨⟨HS, Hr, Hg⟩, Ho, ⟨%d0, H0⟩, ⟨%d1, H1⟩, ⟨%d2, H2⟩, ⟨%d3, H3⟩⟩
      iapply (run_C c (grid0.coords t) _ _ _ _ _ _ _ _ _ _ (fun h => h0 ((hcondReset t).mp h)) ((hcondStore t).mpr h1)
        (iblk V c 0 t) (iblk V c 1 t) (iblk V c 2 t)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · rw [Dat.leavesExact_idle (dat V c) 3 t (idle_3 t h1) (noFlush_3 t h1)]
      rw [accAt_eq V c t, accBefore_carry V c t h0]
      rw [Phi_castSucc, PhiS_pos V c _ _ hz]
      iintro ⟨⟨HS, Hr, Hg⟩, Ho, ⟨%d0, H0⟩, ⟨%d1, H1⟩, ⟨%d2, H2⟩, ⟨%d3, H3⟩⟩
      iapply (run_B c (grid0.coords t) _ _ _ _ _ _ _ _ _ _ (fun h => h0 ((hcondReset t).mp h)) (fun h => h1 ((hcondStore t).mp h))
        (iblk V c 0 t) (iblk V c 1 t) (iblk V c 2 t) _
        (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The library's body obligation for the pooling pipeline, at every point. -/
theorem body_obligation (c : Dev nD) : BodyObligation (dat (F := F) V c) (defs₀ (F := F)) Variants.none () Set.univ := by
  intro t
  rw [bigSep_W0, bigSep_W0]
  exact sound_body V c t

/-- What the launch hands the region is the invariant before the first point. -/
theorem Phi_in (c : Dev nD) : (Pipeline.ΦA spec0 c : sProp 𝕄) ⊢ (dat V c).Φ 0 := by
  rw [show (dat V c).Φ 0 = PhiS V c 0 (Nat.zero_le _) from rfl, PhiS_zero V c 0 _ rfl]

/-- After the last point the invariant gives the scoped rest and the generator register back. -/
theorem Phi_out (c : Dev nD) : (dat V c).Φ (Fin.last cfg0.N) ⊢ (Pipeline.ΦA spec0 c : sProp 𝕄) := by
  have hN : cfg0.N = 1152 := N_0
  rw [show (dat V c).Φ (Fin.last cfg0.N) = PhiS V c (Fin.last cfg0.N).val (Nat.le_of_lt_succ (Fin.last cfg0.N).isLt) from rfl,
    PhiS_pos V c _ _ (by rw [Fin.val_last]; omega), PhiA_eq]
  iintro ⟨HS, Hr, Hg⟩
  isplitl [HS]; · iexists _; iexact HS
  isplitl [Hr]; · iexact Hr
  iexact Hg

end Cert.KernelIdeal.Pool

end
-- ==== Proof.ConvBody.lean ====
/-
  The projection region's body at every grid point against its proof data: one run of the body, its store covering
  the output block with the product-plus-bias of the three input blocks.
-/
import proofs.«421746_j85023172592644_2_alg».proof.Proof.ConvData
import Idealize.ShloMosaic.Lib.Pipeline.Value

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input windows' staging buffers hold their blocks -/

/-- The block of means: its staging buffer holds the block of the point, at every point. -/
theorem before_0 (c : Dev nD) (t : Fin cfg1.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The weight: its block index never moves, and its staging buffer holds the whole array at every point. -/
theorem before_1 (c : Dev nD) (t : Fin cfg1.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- The bias row: likewise. -/
theorem before_2 (c : Dev nD) (t : Fin cfg1.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-! ## The body's one store covers the output block -/

/-- The rectangle of the body's store (and of its load of the means): the whole 1 x 4096 x 128 block, at offset zero. -/
abbrev rOut : Rect S1x4096x128 :=
  Rect.unit (s := S1x4096x128) ![0, 0, 0] S1x4096x128.size inb_S1x4096x128_S1x4096x128_0_0_0

theorem hz3 : (![0, 0, 0] : Fin 3 → Nat) = fun _ => 0 := funext fun a => by fin_cases a <;> rfl
theorem hz2 : (![0, 0] : Fin 2 → Nat) = fun _ => 0 := funext fun a => by fin_cases a <;> rfl

/-- The store's rectangle is the whole block, so it covers it. -/
theorem cover_out (p0 : Vec F S1x4096x128 .f32) (y : S1x4096x128.Idx) :
    ∃ pc ∈ ([⟨rOut, p0⟩] : List (View.Piece (Elt F) S1x4096x128 .f32)), y ∈ pc.1.set :=
  View.cover_of_tiled [⟨rOut, p0⟩] S1x4096x128.size (by rfl) y

/-! ## The body's triple -/

set_option maxHeartbeats 1000000 in
/-- The body on whole staging memrefs, the three inputs' at read contents `x0 x1 x2` and the output's at anything,
    runs to the continuation holding the inputs' as they were and the output's at the stored value of the three. -/
theorem sound_kernel (c : Dev nD) (E : Set ℕ) (i : grid1.Coords)
    (arg2 : Memref sig .tc .vmem S1x4096x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S1x4096x128 .f32) (harg5 : arg5.IsWhole)
    (x0 : Vec F S1x4096x128 .f32) (x1 : Vec F S128x128 .f32) (x2 : Vec F S1x128 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (k1_pay1 x0 x1 x2)) -∗ K ⟨⟩))
      ⊢ wp frame (wpE (defs₀ (F := F)) Variants.none c none) E (cc1__mc_kernel i arg2 harg2 arg3 harg3 arg4 harg4 arg5 harg5) K := by
  simp only [cc1__mc_kernel_eq_skeleton]; unfold cc1__mc_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover_out _), View.canon_unit_zero hz3]
  simp only [View.readAt_eq_ld, View.ld_unit_zero (S := S1x4096x128) hz3, View.ld_unit_zero (S := S128x128) hz2,
    View.ld_unit_zero (S := S1x128) hz2]

/-! ## The body obligation, at a generic point -/

/-- What the body is called with at point `t`: the invariant, what is owed, and the four windows' staging buffers. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- What it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' staging buffers hold their blocks, so the body's triple applies; the invariant
    and what is owed pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the projection pipeline, at every point. -/
theorem body_obligation (c : Dev nD) : BodyObligation (dat (F := F) V c) (defs₀ (F := F)) Variants.none () Set.univ := fun t => by
  rw [bigSep_W1, bigSep_W1]
  exact sound_body V c t

end Cert.KernelIdeal.Conv

end
-- ==== Proof.BitsPoolData.lean ====
/-
  The pooling region (the first pallas_call) as data of the pipeline: grid (12, 96) over target tiles `tt` and
  source tiles `s`. At point (tt, s) the body holds a 1024 x 2048 accumulator in scratch: it is reset to zero when
  `s = 0`, then receives the product of the 1024 x 512 indicator matrix (row `r` of target tile `tt` against the 512
  parent ids of source tile `s`) with the 512 x 2048 block of the folded input; when `s = 95` the accumulator times
  the reciprocal-count column is stored to the output block `tt`. So the scratch after point `n` is the sum over the
  source tiles met since the last reset, and the output block is written exactly at the points `n % 96 = 95`.
-/
import proofs.«421746_j85023172592644_2_alg».proof.Proof.Gen.Kernel.Launch
import proofs.«421746_j85023172592644_2_alg».proof.Proof.Gen.Kernel.Skeleton
import proofs.«421746_j85023172592644_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator scratch, a whole scoped buffer the kernel keeps between points. -/
abbrev scM : Memref sig .tc .vmem S1024x2048 .f32 := Memref.whole cc0_scratch0

/-- THE ACCUMULATION: what the scratch holds after the body at position `n`. The body adds the point's indicator
    product to what it finds; at a point with `s = 0` (`n % 96 = 0`) it finds the zeros it has just stored, elsewhere
    what the point before left. -/
def accAt (c : Dev nD) : (n : ℕ) → n < cfg0.N → Vec F S1024x2048 .f32
  | 0, hn => k0_pay2 (grid0.coords ⟨0, hn⟩) (iblk V c 1 ⟨0, hn⟩) (iblk V c 0 ⟨0, hn⟩) (k0_pay1 (F := F))
  | n + 1, hn => k0_pay2 (grid0.coords ⟨n + 1, hn⟩) (iblk V c 1 ⟨n + 1, hn⟩) (iblk V c 0 ⟨n + 1, hn⟩)
      (if (n + 1) % 96 = 0 then k0_pay1 (F := F) else accAt c n (Nat.lt_of_succ_lt hn))

/-- What the accumulator holds when the body at position `n` loads it for the sum: zeros at a reset point, else what
    the point before left. -/
def accBefore (c : Dev nD) (n : ℕ) (hn : n < cfg0.N) : Vec F S1024x2048 .f32 :=
  if h : n % 96 = 0 then k0_pay1 (F := F) else accAt V c (n - 1) (Nat.lt_of_le_of_lt (Nat.sub_le _ _) hn)

theorem accAt_eq (c : Dev nD) (t : Fin cfg0.N) :
    accAt V c t.val t.isLt = k0_pay2 (grid0.coords t) (iblk V c 1 t) (iblk V c 0 t) (accBefore V c t.val t.isLt) := by
  obtain ⟨n, hn⟩ := t
  cases n with
  | zero => unfold accAt accBefore; rw [dif_pos (Nat.zero_mod _)]
  | succ n =>
    have e : accAt V c (n + 1) hn = k0_pay2 (grid0.coords ⟨n + 1, hn⟩) (iblk V c 1 ⟨n + 1, hn⟩) (iblk V c 0 ⟨n + 1, hn⟩)
        (if (n + 1) % 96 = 0 then k0_pay1 (F := F) else accAt V c n (Nat.lt_of_succ_lt hn)) := by
      rw [accAt]
    show accAt V c (n + 1) hn = _
    rw [e]; unfold accBefore
    by_cases h : (n + 1) % 96 = 0
    · rw [dif_pos h, if_pos h]
    · rw [dif_neg h, if_neg h]; rfl

/-- The scoped buffers of the core that are neither a staging buffer of this region nor its scratch (the second
    region's staging buffers), each whole at some contents: untouched by this region. -/
def restBufs (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The region invariant before position `n`: before the first point what the launch hands the region (every scoped
    buffer that is no staging buffer of the region at anything, the generator register at some state); afterwards the
    accumulator at what the point before left, the other scoped buffers at anything, the generator register. -/
def PhiS (c : Dev nD) : (n : ℕ) → n ≤ cfg0.N → sProp 𝕄
  | 0, _ => Pipeline.ΦA spec0 c
  | n + 1, hn => iprop(owns (c : Thread nD τ) scM fullShare (accAt V c n hn) ∗ restBufs (F := F) c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM fullShare (accAt V c n hn) ∗ restBufs (F := F) c ∗ (∃ r, prngReg c r)) := rfl

theorem PhiS_pos (c : Dev nD) (n : ℕ) (h : n ≤ cfg0.N) (hz : n ≠ 0) :
    PhiS V c n h = iprop(owns (c : Thread nD τ) scM fullShare (accAt V c (n - 1) (by omega)) ∗ restBufs (F := F) c ∗ (∃ r, prngReg c r)) := by
  cases n with
  | zero => exact absurd rfl hz
  | succ n => rfl

/-- The proof data of the pooling pipeline on core `c`: the arrays as the region finds them; after the body each input's
    buffer at its block, the output's at the accumulator times the reciprocal counts (consulted only where the body
    stores it, the points with `s = 95`); the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay3 (accAt V c t.val t.isLt) (iblk V c 2 t)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = k0_pay3 (accAt V c t.val t.isLt) (iblk V c 2 t) := by dsimp only [dat]

theorem Phi_castSucc (c : Dev nD) (t : Fin cfg0.N) :
    (dat V c).Φ t.castSucc = PhiS V c t.val (Nat.le_of_lt t.isLt) := by
  dsimp only [dat]; simp only [Fin.coe_castSucc]

theorem Phi_succ (c : Dev nD) (t : Fin cfg0.N) :
    (dat V c).Φ t.succ = PhiS V c (t.val + 1) t.isLt := rfl

end Cert.Kernel.Pool

end
-- ==== Proof.BitsConvData.lean ====
/-
  The projection region (the second pallas_call) as data of the pipeline: grid (16, 3) over the 16 batch slices and
  three tiles of 4096 target rows. At every point the body multiplies the 4096 x 128 block of means by the 128 x 128
  transposed weight, adds the bias row, and stores the 4096 x 128 result block; nothing is kept between points.
-/
import proofs.«421746_j85023172592644_2_alg».proof.Proof.Gen.Kernel.Launch
import proofs.«421746_j85023172592644_2_alg».proof.Proof.Gen.Kernel.Skeleton
import proofs.«421746_j85023172592644_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the projection pipeline on core `c`: the arrays as the region finds them; after the body each
    input's buffer at its block and the output's at the body's one stored value of the three input blocks; the
    invariant the untouched scoped rest and generator register; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => k1_pay1 (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) :
    (dat V c).after 3 t = k1_pay1 (iblk V c 0 t) (iblk V c 1 t) (iblk V c 2 t) := by dsimp only [dat]

end Cert.Kernel.Conv

end
-- ==== Proof.BitsFold.lean ====
/-
  The buffers' contents at each boundary of `main`: the launch memory, then each stretch of host operations applied in
  order, and at each launched region's exit its output array replaced by what the region's write-backs leave (every
  other buffer as it was at the region's entry).
-/
import proofs.«421746_j85023172592644_2_alg».proof.Proof.BitsPoolData
import proofs.«421746_j85023172592644_2_alg».proof.Proof.BitsConvData

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)
/-- After the two integer constants. -/
abbrev W1 : Dev nD → Valuation τ sig (Elt F) := fun c => StableHlo.after hostOps0 (W0 m c)
/-- After the clamp of the parent ids. -/
abbrev W2 : Dev nD → Valuation τ sig (Elt F) := fun c => StableHlo.after hostOps0_1 (W1 m c)
/-- After the folding of the input and the count of each target's sources. -/
abbrev W3 : Dev nD → Valuation τ sig (Elt F) := fun c => StableHlo.after hostOps0_2 (W2 m c)
/-- After the lower bound on the counts. -/
abbrev W4 : Dev nD → Valuation τ sig (Elt F) := fun c => StableHlo.after hostOps0_3 (W3 m c)
/-- After the reciprocal counts (the pooling region's entry). -/
abbrev W5 : Dev nD → Valuation τ sig (Elt F) := fun c => StableHlo.after hostOps0_4 (W4 m c)
/-- The same read at the TensorCore's references (what the pooling region's proof data take). -/
abbrev V5 : (c : Dev nD) → (b : Ref sig .tc) → Buf (Elt F) ((c : Thread nD τ).loc b) := fun c b => W5 m c b
/-- At the pooling region's exit: its arrays at what the pipeline leaves, every other buffer as entered. -/
def W6 (c : Dev nD) : Valuation τ sig (Elt F) :=
  Pipeline.withArrays spec0 c (W5 m c) fun w => (Pool.dat (V5 m) c).arrAt w cfg0.N
abbrev V6 : (c : Dev nD) → (b : Ref sig .tc) → Buf (Elt F) ((c : Thread nD τ).loc b) := fun c b => W6 m c b
/-- After the unfolding of the pooled means and the transposed weight and bias row (the projection region's entry). -/
abbrev W7 : Dev nD → Valuation τ sig (Elt F) := fun c => StableHlo.after hostOps1 (W6 m c)
abbrev V7 : (c : Dev nD) → (b : Ref sig .tc) → Buf (Elt F) ((c : Thread nD τ).loc b) := fun c b => W7 m c b
/-- At the projection region's exit. -/
def W8 (c : Dev nD) : Valuation τ sig (Elt F) :=
  Pipeline.withArrays spec1 c (W7 m c) fun w => (Conv.dat (V7 m) c).arrAt w cfg1.N
abbrev V8 : (c : Dev nD) → (b : Ref sig .tc) → Buf (Elt F) ((c : Thread nD τ).loc b) := fun c b => W8 m c b
/-- After the last reshape (the return). -/
abbrev W9 : Dev nD → Valuation τ sig (Elt F) := fun c => StableHlo.after hostOps2 (W8 m c)

theorem W6_arr (c : Dev nD) (w : Fin cfg0.W) :
    W6 m c (Proc.devRef .tc (Pipeline.arrRef spec0 w)) = (Pool.dat (V5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
theorem W8_arr (c : Dev nD) (w : Fin cfg1.W) :
    W8 m c (Proc.devRef .tc (Pipeline.arrRef spec1 w)) = (Conv.dat (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb

end Cert.Kernel.Run

end
-- ==== Proof.BitsPoolBody.lean ====
/-
  The pooling region's body at every grid point against its proof data: the three ways the two conditionals fall
  (reset and accumulate; accumulate; accumulate and store the scaled accumulator), and the invariant at the two ends.
-/
import proofs.«421746_j85023172592644_2_alg».proof.Proof.BitsPoolData
import Idealize.ShloMosaic.Lib.Pipeline.Value

set_option maxRecDepth 16384

noncomputable section

namespace Cert.Kernel.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The two conditions of the body, in closed form over the grid -/

/-- The first conditional's condition (the source-tile coordinate is zero), as the body computes it. -/
abbrev condReset (i : grid0.Coords) : Prop :=
  (Scalar.cmpi .ne (Scalar.extui (Scalar.cmpi .eq (BitVec.ofNat 32 (i 1).val) 0#32)) 0#32) = 1#1
/-- It holds exactly at the points whose source tile is the first. -/
theorem hcondReset : ∀ t : Fin cfg0.N, condReset (grid0.coords t) ↔ t.val % 96 = 0 :=
  (by decide +kernel : ∀ t : Fin grid0.N, condReset (grid0.coords t) ↔ t.val % 96 = 0)

/-- The second conditional's condition (the source-tile coordinate is the last). -/
abbrev condStore (i : grid0.Coords) : Prop := k0_cond2 i = 1#1
/-- It holds exactly at the points whose source tile is the last. -/
theorem hcondStore : ∀ t : Fin cfg0.N, condStore (grid0.coords t) ↔ t.val % 96 = 95 :=
  (by decide +kernel : ∀ t : Fin grid0.N, condStore (grid0.coords t) ↔ t.val % 96 = 95)

/-! ## Where the windows are idle -/

/-- The three inputs are never idle. -/
theorem live_0 (t : Fin cfg0.N) : cfg0.idle 0 (grid0.coords t) = false := rfl
theorem live_1 (t : Fin cfg0.N) : cfg0.idle 1 (grid0.coords t) = false := rfl
theorem live_2 (t : Fin cfg0.N) : cfg0.idle 2 (grid0.coords t) = false := rfl
/-- The output is idle away from the last source tile, -/
theorem idle_3 : ∀ t : Fin cfg0.N, ¬t.val % 96 = 95 → cfg0.idle 3 (grid0.coords t) = true :=
  (by decide +kernel : ∀ t : Fin grid0.N, ¬t.val % 96 = 95 → cfg0.idle 3 (grid0.coords t) = true)
/-- is not written back there, -/
theorem noFlush_3 (t : Fin cfg0.N) (h : ¬t.val % 96 = 95) : (cfg0.win 3).flush t = false :=
  Bool.eq_false_iff.mpr fun hf => h ((flush0_3 t).mp hf)
/-- and is live at the last source tile. -/
theorem live_3 : ∀ t : Fin cfg0.N, t.val % 96 = 95 → cfg0.idle 3 (grid0.coords t) = false :=
  (by decide +kernel : ∀ t : Fin grid0.N, t.val % 96 = 95 → cfg0.idle 3 (grid0.coords t) = false)

/-! ## The staging memrefs at a point -/

abbrev ms_0 (t : Fin cfg0.N) : Memref sig .tc .vmem S512x2048 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x512 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1024x1 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1024x2048 .f32 := win0_3.stage (cfg0.slots t 3)
abbrev hs_3 (t : Fin cfg0.N) : (ms_3 t).IsWhole := hstage0_3 ((cfg0.slots t 3).cast nbuf0_3)

/-! ## Each input's staging buffer holds its block -/

theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## What the launch hands the region, with the accumulator as a memref -/

theorem PhiA_eq (c : Dev nD) :
    (Pipeline.ΦA spec0 c : sProp 𝕄)
      = iprop((∃ d, owns (c : Thread nD τ) scM fullShare d) ∗ restBufs (F := F) c ∗ (∃ r, prngReg c r)) := by
  unfold Pipeline.ΦA; rw [scopedRest0_eq]; simp only [scM, owns_whole, restBufs]
  exact BI.equiv_iff.mp ⟨BI.sep_assoc, BI.sep_assoc'⟩

/-! ## What the accumulator holds when a point's sum loads it -/

theorem accBefore_reset (c : Dev nD) (t : Fin cfg0.N) (h : t.val % 96 = 0) :
    accBefore V c t.val t.isLt = k0_pay1 (F := F) := by
  unfold accBefore; rw [dif_pos h]
theorem accBefore_carry (c : Dev nD) (t : Fin cfg0.N) (h : ¬t.val % 96 = 0) :
    accBefore V c t.val t.isLt = accAt V c (t.val - 1) (Nat.lt_of_le_of_lt (Nat.sub_le _ _) t.isLt) := by
  unfold accBefore; rw [dif_neg h]

/-! ## Whole-buffer accesses -/

/-- The body's accesses all start at the origin. -/
theorem zero_off : (![0, 0] : Fin 2 → Nat) = fun _ => 0 := funext fun a => by fin_cases a <;> rfl

/-- One store through the whole accumulator shape covers it. -/
theorem cover_whole (p : Vec F S1024x2048 .f32) (L : List (View.Piece (Elt F) S1024x2048 .f32)) (y : S1024x2048.Idx) :
    ∃ pc ∈ ((⟨Rect.unit (s := S1024x2048) ![0, 0] S1024x2048.size inb_S1024x2048_S1024x2048_0_0, p⟩ : View.Piece (Elt F) S1024x2048 .f32) :: L),
      y ∈ pc.1.set :=
  ⟨_, List.mem_cons_self, View.mem_set_unit_zero zero_off inb_S1024x2048_S1024x2048_0_0 y⟩

/-! ## The body's triple, case by case -/

set_option maxHeartbeats 1000000 in
/-- Neither conditional taken: the accumulator, found at `xs`, ends at `xs` plus the point's indicator product; the
    inputs and the output's buffer are as found. -/
theorem run_B (c : Dev nD) (i : grid0.Coords) (arg2 : Memref sig .tc .vmem S512x2048 .bf16) (harg2 : arg2.IsWhole) (arg3 : Memref sig .tc .vmem S1x512 .i32) (harg3 : arg3.IsWhole)
    (arg4 : Memref sig .tc .vmem S1024x1 .f32) (harg4 : arg4.IsWhole) (arg5 : Memref sig .tc .vmem S1024x2048 .f32) (harg5 : arg5.IsWhole)
    (arg6 : Memref sig .tc .vmem S1024x2048 .f32) (harg6 : arg6.IsWhole)
    (hc0 : ¬condReset i) (hc1 : ¬condStore i)
    (x0 : Vec F S512x2048 .bf16) (x1 : Vec F S1x512 .i32) (x2 : Vec F S1024x1 .f32) (x3 : Vec F S1024x2048 .f32)
    (xs : Vec F S1024x2048 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 i x1 x0 xs)) -∗ K ⟨⟩))
      ⊢ wp frame (wpE (defs₀ (F := F)) Variants.none c none) E (cc0__pool_kernel i arg2 harg2 arg3 harg3 arg4 harg4 arg5 harg5 arg6 harg6) K := by
  simp only [cc0__pool_kernel_eq_skeleton]; unfold cc0__pool_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [View.read_writes_eq_canon _ _ _ (cover_whole _ _), View.canon_unit_zero zero_off]
  simp only [View.readAt_eq_ld, harg2.read_unread, harg3.read_unread, harg6.read_unread,
    View.ld_unit_zero (S := S1x512) zero_off, View.ld_unit_zero (S := S512x2048) zero_off, View.ld_unit_zero (S := S1024x2048) zero_off]

set_option maxHeartbeats 1000000 in
/-- Only the second conditional taken: the accumulator, found at `xs`, ends at `xs` plus the point's indicator product,
    and the output's buffer at that sum times the reciprocal-count column; the inputs are as found. -/
theorem run_C (c : Dev nD) (i : grid0.Coords) (arg2 : Memref sig .tc .vmem S512x2048 .bf16) (harg2 : arg2.IsWhole) (arg3 : Memref sig .tc .vmem S1x512 .i32) (harg3 : arg3.IsWhole)
    (arg4 : Memref sig .tc .vmem S1024x1 .f32) (harg4 : arg4.IsWhole) (arg5 : Memref sig .tc .vmem S1024x2048 .f32) (harg5 : arg5.IsWhole)
    (arg6 : Memref sig .tc .vmem S1024x2048 .f32) (harg6 : arg6.IsWhole)
    (hc0 : ¬condReset i) (hc1 : condStore i)
    (x0 : Vec F S512x2048 .bf16) (x1 : Vec F S1x512 .i32) (x2 : Vec F S1024x1 .f32)
    (xs : Vec F S1024x2048 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 i x1 x0 xs) x2) ∗ owns (c : Thread nD τ) arg6 fullShare (k0_pay2 i x1 x0 xs)) -∗ K ⟨⟩))
      ⊢ wp frame (wpE (defs₀ (F := F)) Variants.none c none) E (cc0__pool_kernel i arg2 harg2 arg3 harg3 arg4 harg4 arg5 harg5 arg6 harg6) K := by
  simp only [cc0__pool_kernel_eq_skeleton]; unfold cc0__pool_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (cover_whole _ _), View.canon_unit_zero zero_off]
    simp only [View.readAt_eq_ld, harg2.read_unread, harg3.read_unread, harg4.read_unread, harg6.read_unread,
      View.readCov_unit_zero (S := S1024x2048) _ zero_off,
      View.ld_unit_zero (S := S1x512) zero_off, View.ld_unit_zero (S := S512x2048) zero_off, View.ld_unit_zero (S := S1024x2048) zero_off,
      View.ld_unit_zero (S := S1024x1) zero_off]
  iexists _; isplitr
  swap; · iexact HS
  ipureintro
  sl_unfold_run_names
  rw [View.read_writes_eq_canon _ _ _ (cover_whole _ _), View.canon_unit_zero zero_off]
  simp only [View.readAt_eq_ld, harg2.read_unread, harg3.read_unread, harg6.read_unread,
    View.ld_unit_zero (S := S1x512) zero_off, View.ld_unit_zero (S := S512x2048) zero_off, View.ld_unit_zero (S := S1024x2048) zero_off]

set_option maxHeartbeats 1000000 in
/-- Only the first conditional taken: the accumulator, found at anything, is zeroed and ends at the point's indicator
    product added to zeros; the inputs and the output's buffer are as found. -/
theorem run_A (c : Dev nD) (i : grid0.Coords) (arg2 : Memref sig .tc .vmem S512x2048 .bf16) (harg2 : arg2.IsWhole) (arg3 : Memref sig .tc .vmem S1x512 .i32) (harg3 : arg3.IsWhole)
    (arg4 : Memref sig .tc .vmem S1024x1 .f32) (harg4 : arg4.IsWhole) (arg5 : Memref sig .tc .vmem S1024x2048 .f32) (harg5 : arg5.IsWhole)
    (arg6 : Memref sig .tc .vmem S1024x2048 .f32) (harg6 : arg6.IsWhole)
    (hc0 : condReset i) (hc1 : ¬condStore i)
    (x0 : Vec F S512x2048 .bf16) (x1 : Vec F S1x512 .i32) (x2 : Vec F S1024x1 .f32) (x3 : Vec F S1024x2048 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 i x1 x0 (k0_pay1 (F := F)))) -∗ K ⟨⟩))
      ⊢ wp frame (wpE (defs₀ (F := F)) Variants.none c none) E (cc0__pool_kernel i arg2 harg2 arg3 harg3 arg4 harg4 arg5 harg5 arg6 harg6) K := by
  simp only [cc0__pool_kernel_eq_skeleton]; unfold cc0__pool_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_run_names
  rw [View.read_writes_eq_canon _ _ _ (cover_whole _ _), View.canon_cons_unit_zero (S := S1024x2048) zero_off]
  simp only [View.readAt_eq_ld, harg2.read_unread, harg3.read_unread,
    View.readCov_unit_zero (S := S1024x2048) _ zero_off,
    View.ld_unit_zero (S := S1x512) zero_off, View.ld_unit_zero (S := S512x2048) zero_off, View.ld_unit_zero (S := S1024x2048) zero_off]

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point. The inputs' buffers hold their blocks; the point's source tile says which conditionals are
    taken. At the first source tile the accumulator is reset, whatever it held, and ends at the indicator product added
    to zeros; elsewhere it is found at what the point before left and ends at that plus the product. The output's buffer
    is handed back untouched except at the last source tile, where it ends at the new accumulator times the reciprocal
    counts. The other scoped buffers, the generator register and what the core owes pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [Phi_succ, PhiS_succ]
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  have hN : t.val < 1152 := lt_of_lt_of_eq t.isLt (show cfg0.N = 1152 from N_0)
  by_cases h0 : t.val % 96 = 0
  · have h1 : ¬t.val % 96 = 95 := by omega
    rw [Dat.leavesExact_idle (dat V c) 3 t (idle_3 t h1) (noFlush_3 t h1)]
    rw [accAt_eq V c t, accBefore_reset V c t h0]
    by_cases hz : t.val = 0
    · rw [Phi_castSucc, PhiS_zero V c _ _ hz, PhiA_eq]
      iintro ⟨⟨HS, Hr, Hg⟩, Ho, ⟨%d0, H0⟩, ⟨%d1, H1⟩, ⟨%d2, H2⟩, ⟨%d3, H3⟩⟩
      iapply (run_A c (grid0.coords t) _ _ _ _ _ _ _ _ _ _ ((hcondReset t).mpr h0) (fun h => h1 ((hcondStore t).mp h))
        (iblk V c 0 t) (iblk V c 1 t) (iblk V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3
    · rw [Phi_castSucc, PhiS_pos V c _ _ hz]
      iintro ⟨⟨HS, Hr, Hg⟩, Ho, ⟨%d0, H0⟩, ⟨%d1, H1⟩, ⟨%d2, H2⟩, ⟨%d3, H3⟩⟩
      iapply (run_A c (grid0.coords t) _ _ _ _ _ _ _ _ _ _ ((hcondReset t).mpr h0) (fun h => h1 ((hcondStore t).mp h))
        (iblk V c 0 t) (iblk V c 1 t) (iblk V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 96 = 95
    · rw [show (dat V c).leavesExact 3 t = owns (c : Thread nD τ) (ms_3 t) fullShare ((dat V c).after 3 t) from by
        unfold Dat.leavesExact; rw [live_3 t h1], after_3]
      rw [accAt_eq V c t, accBefore_carry V c t h0]
      rw [Phi_castSucc, PhiS_pos V c _ _ hz]
      iintro ⟨⟨HS, Hr, Hg⟩, Ho, ⟨%d0, H0⟩, ⟨%d1, H1⟩, ⟨%d2, H2⟩, ⟨%d3, H3⟩⟩
      iapply (run_C c (grid0.coords t) _ _ _ _ _ _ _ _ _ _ (fun h => h0 ((hcondReset t).mp h)) ((hcondStore t).mpr h1)
        (iblk V c 0 t) (iblk V c 1 t) (iblk V c 2 t)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · rw [Dat.leavesExact_idle (dat V c) 3 t (idle_3 t h1) (noFlush_3 t h1)]
      rw [accAt_eq V c t, accBefore_carry V c t h0]
      rw [Phi_castSucc, PhiS_pos V c _ _ hz]
      iintro ⟨⟨HS, Hr, Hg⟩, Ho, ⟨%d0, H0⟩, ⟨%d1, H1⟩, ⟨%d2, H2⟩, ⟨%d3, H3⟩⟩
      iapply (run_B c (grid0.coords t) _ _ _ _ _ _ _ _ _ _ (fun h => h0 ((hcondReset t).mp h)) (fun h => h1 ((hcondStore t).mp h))
        (iblk V c 0 t) (iblk V c 1 t) (iblk V c 2 t) _
        (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The library's body obligation for the pooling pipeline, at every point. -/
theorem body_obligation (c : Dev nD) : BodyObligation (dat (F := F) V c) (defs₀ (F := F)) Variants.none () Set.univ := by
  intro t
  rw [bigSep_W0, bigSep_W0]
  exact sound_body V c t

/-- What the launch hands the region is the invariant before the first point. -/
theorem Phi_in (c : Dev nD) : (Pipeline.ΦA spec0 c : sProp 𝕄) ⊢ (dat V c).Φ 0 := by
  rw [show (dat V c).Φ 0 = PhiS V c 0 (Nat.zero_le _) from rfl, PhiS_zero V c 0 _ rfl]

/-- After the last point the invariant gives the scoped rest and the generator register back. -/
theorem Phi_out (c : Dev nD) : (dat V c).Φ (Fin.last cfg0.N) ⊢ (Pipeline.ΦA spec0 c : sProp 𝕄) := by
  have hN : cfg0.N = 1152 := N_0
  rw [show (dat V c).Φ (Fin.last cfg0.N) = PhiS V c (Fin.last cfg0.N).val (Nat.le_of_lt_succ (Fin.last cfg0.N).isLt) from rfl,
    PhiS_pos V c _ _ (by rw [Fin.val_last]; omega), PhiA_eq]
  iintro ⟨HS, Hr, Hg⟩
  isplitl [HS]; · iexists _; iexact HS
  isplitl [Hr]; · iexact Hr
  iexact Hg

end Cert.Kernel.Pool

end
-- ==== Proof.BitsConvBody.lean ====
/-
  The projection region's body at every grid point against its proof data: one run of the body, its store covering
  the output block with the product-plus-bias of the three input blocks.
-/
import proofs.«421746_j85023172592644_2_alg».proof.Proof.BitsConvData
import Idealize.ShloMosaic.Lib.Pipeline.Value

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input windows' staging buffers hold their blocks -/

/-- The block of means: its staging buffer holds the block of the point, at every point. -/
theorem before_0 (c : Dev nD) (t : Fin cfg1.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The weight: its block index never moves, and its staging buffer holds the whole array at every point. -/
theorem before_1 (c : Dev nD) (t : Fin cfg1.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- The bias row: likewise. -/
theorem before_2 (c : Dev nD) (t : Fin cfg1.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-! ## The body's one store covers the output block -/

/-- The rectangle of the body's store (and of its load of the means): the whole 1 x 4096 x 128 block, at offset zero. -/
abbrev rOut : Rect S1x4096x128 :=
  Rect.unit (s := S1x4096x128) ![0, 0, 0] S1x4096x128.size inb_S1x4096x128_S1x4096x128_0_0_0

theorem hz3 : (![0, 0, 0] : Fin 3 → Nat) = fun _ => 0 := funext fun a => by fin_cases a <;> rfl
theorem hz2 : (![0, 0] : Fin 2 → Nat) = fun _ => 0 := funext fun a => by fin_cases a <;> rfl

/-- The store's rectangle is the whole block, so it covers it. -/
theorem cover_out (p0 : Vec F S1x4096x128 .f32) (y : S1x4096x128.Idx) :
    ∃ pc ∈ ([⟨rOut, p0⟩] : List (View.Piece (Elt F) S1x4096x128 .f32)), y ∈ pc.1.set :=
  View.cover_of_tiled [⟨rOut, p0⟩] S1x4096x128.size (by rfl) y

/-! ## The body's triple -/

set_option maxHeartbeats 1000000 in
/-- The body on whole staging memrefs, the three inputs' at read contents `x0 x1 x2` and the output's at anything,
    runs to the continuation holding the inputs' as they were and the output's at the stored value of the three. -/
theorem sound_kernel (c : Dev nD) (E : Set ℕ) (i : grid1.Coords)
    (arg2 : Memref sig .tc .vmem S1x4096x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S1x4096x128 .f32) (harg5 : arg5.IsWhole)
    (x0 : Vec F S1x4096x128 .f32) (x1 : Vec F S128x128 .f32) (x2 : Vec F S1x128 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (k1_pay1 x0 x1 x2)) -∗ K ⟨⟩))
      ⊢ wp frame (wpE (defs₀ (F := F)) Variants.none c none) E (cc1__mc_kernel i arg2 harg2 arg3 harg3 arg4 harg4 arg5 harg5) K := by
  simp only [cc1__mc_kernel_eq_skeleton]; unfold cc1__mc_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover_out _), View.canon_unit_zero hz3]
  simp only [View.readAt_eq_ld, View.ld_unit_zero (S := S1x4096x128) hz3, View.ld_unit_zero (S := S128x128) hz2,
    View.ld_unit_zero (S := S1x128) hz2]

/-! ## The body obligation, at a generic point -/

/-- What the body is called with at point `t`: the invariant, what is owed, and the four windows' staging buffers. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- What it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' staging buffers hold their blocks, so the body's triple applies; the invariant
    and what is owed pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the projection pipeline, at every point. -/
theorem body_obligation (c : Dev nD) : BodyObligation (dat (F := F) V c) (defs₀ (F := F)) Variants.none () Set.univ := fun t => by
  rw [bigSep_W1, bigSep_W1]
  exact sound_body V c t

end Cert.Kernel.Conv

end
-- ==== Proof.PoolPayload.lean ====
/-
  The pooling body's three stored values, read entry by entry over the extended reals. The reset block is zero; the
  stored output block is the accumulator times the reciprocal-count column of the same row; the accumulating step adds to
  the entry (r, col) the product of row r of a 0/1 matrix with column col of the source tile, and since entry (r, k) of
  that matrix is 1 exactly when the k-th id of the tile is the 32-bit word of i0 * 1024 + r (1 * x = x, 0 * x = 0), the
  product is the sum of the tile's rows carrying that id. Sums and words only: the word of i0 * 1024 + r is the
  product and sum of the words, whatever the sizes.
-/
import proofs.«421746_j85023172592644_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Pool

open Idealize.ShloMosaic Idealize.ShloMosaic.TcCoe Idealize.ShloMosaic.ValueIdx
open Idealize.SL Idealize.SL.Sem
open Cert.KernelIdeal Cert.KernelIdeal.Gen
open scoped BigOperators

/-! ## The reset block and the stored block -/

/-- The reset block is zero at every entry. -/
theorem pay1_apply (j : S1024x2048.Idx) : k0_pay1 (F := Ideal) j = 0 := by
  unfold k0_pay1
  rw [shapeCast_self]
  exact Ideal.ofBits_zero_f32

/-- The stored block at an entry: the accumulator there times the column's entry of the same row. -/
theorem pay3_apply (v26 : Vec Ideal S1024x2048 .f32) (v27 : Vec Ideal S1024x1 .f32) (r : Fin 1024) (col : Fin 2048) :
    k0_pay3 v26 v27 (ix2 r col) = v26 (ix2 r col) * v27 (ix2 r (0 : Fin 1)) := by
  unfold k0_pay3
  rw [shapeCast_self]
  refine (mulf_apply _ _ _).trans ?_
  refine congrArg (v26 (ix2 r col) * ·) ?_
  refine broadcastTo_apply v27 broadcasts_S1024x1_S1024x2048 (ix2 r col) (ix2 r (0 : Fin 1)) ?_
  intro a
  match a with
  | ⟨0, _⟩ => rfl
  | ⟨1, _⟩ => rfl

/-! ## The matrix product at an entry -/

/-- The left factor's index of the product at output index j and inner index q: row j0, -/
theorem lhs_D0_0 (j : S1024x2048.Idx) (q : dot_S1024x512_S512x2048_S1024x2048_1_0_0_1_n_n.contr.Idx) :
    (dot_S1024x512_S512x2048_S1024x2048_1_0_0_1_n_n.lhsIdx j q 0).val = (j 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
/-- column q; -/
theorem lhs_D0_1 (j : S1024x2048.Idx) (q : dot_S1024x512_S512x2048_S1024x2048_1_0_0_1_n_n.contr.Idx) :
    (dot_S1024x512_S512x2048_S1024x2048_1_0_0_1_n_n.lhsIdx j q 1).val = (q ⟨0, by decide⟩).val :=
  dot_S1024x512_S512x2048_S1024x2048_1_0_0_1_n_n.lhsIdx_val_of_single rfl j q
/-- the right factor's: row q, -/
theorem rhs_D0_0 (j : S1024x2048.Idx) (q : dot_S1024x512_S512x2048_S1024x2048_1_0_0_1_n_n.contr.Idx) :
    (dot_S1024x512_S512x2048_S1024x2048_1_0_0_1_n_n.rhsIdx j q 0).val = (q ⟨0, by decide⟩).val :=
  dot_S1024x512_S512x2048_S1024x2048_1_0_0_1_n_n.rhsIdx_val_of_single rfl j q
/-- column j1. -/
theorem rhs_D0_1 (j : S1024x2048.Idx) (q : dot_S1024x512_S512x2048_S1024x2048_1_0_0_1_n_n.contr.Idx) :
    (dot_S1024x512_S512x2048_S1024x2048_1_0_0_1_n_n.rhsIdx j q 1).val = (j 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- The product of a 1024 x 512 matrix with a 512 x 2048 matrix into a zero accumulator, at an entry: the sum over the
    512 inner positions of the products. -/
theorem matmul_zero_apply (A : FVec Ideal S1024x512 .bf16) (B : FVec Ideal S512x2048 .bf16) (r : Fin 1024) (col : Fin 2048) :
    matmul dot_S1024x512_S512x2048_S1024x2048_1_0_0_1_n_n none A B (constant S1024x2048 .f32 0x00000000#32) (ix2 r col)
      = ∑ k : Fin 512, A (ix2 r k) * B (ix2 k col) := by
  simp only [matmul]
  rw [Ideal.matmul_constant_zero_apply, ← Equiv.sum_comp (ValueIdx.contrEquiv1 dot_S1024x512_S512x2048_S1024x2048_1_0_0_1_n_n 512 rfl rfl).symm]
  refine Finset.sum_congr rfl fun k _ => ?_
  have hk := ValueIdx.contrEquiv1_symm_val dot_S1024x512_S512x2048_S1024x2048_1_0_0_1_n_n 512 rfl rfl k
  have el : dot_S1024x512_S512x2048_S1024x2048_1_0_0_1_n_n.lhsIdx (ix2 r col) ((ValueIdx.contrEquiv1 dot_S1024x512_S512x2048_S1024x2048_1_0_0_1_n_n 512 rfl rfl).symm k) = ix2 r k := funext fun a => Fin.ext (by
    match a with
    | ⟨0, _⟩ => exact lhs_D0_0 _ _
    | ⟨1, _⟩ => exact (lhs_D0_1 _ _).trans hk)
  have er : dot_S1024x512_S512x2048_S1024x2048_1_0_0_1_n_n.rhsIdx (ix2 r col) ((ValueIdx.contrEquiv1 dot_S1024x512_S512x2048_S1024x2048_1_0_0_1_n_n 512 rfl rfl).symm k) = ix2 k col := funext fun a => Fin.ext (by
    match a with
    | ⟨0, _⟩ => exact (rhs_D0_0 _ _).trans hk
    | ⟨1, _⟩ => exact rhs_D0_1 _ _)
  rw [el, er]

/-! ## The 0/1 matrix -/

/-- The 0/1 matrix of the point: entry (r, k) says whether the k-th id of the tile is the word of row r of target tile i0. -/
abbrev indic (i : grid0.Coords) (v7 : Vec Ideal S1x512 .i32) : FVec Ideal S1024x512 .bf16 :=
  truncf .bf16 (sitofp .f32 (extui 32 (cmpi .eq
    (broadcastTo S1024x512 (addi (broadcast S1024x1 (Scalar.muli (BitVec.ofNat 32 (i 0).val) 1024#32)) (iota .tc S1024x1 32 [0] iota_S1024x1_d0_w32)) broadcasts_S1024x1_S1024x512)
    (broadcastTo S1024x512 (shapeCast S1x512 v7 shapeCasts_S1x512_S1x512) broadcasts_S1x512_S1024x512)) natLt_1_32)) bitsLt_bf16_f32

/-- Its left word at (r, k): the given word plus the word of r. -/
theorem rowWord_apply (w : BitVec 32) (r : Fin 1024) (k : Fin 512) :
    broadcastTo S1024x512 (addi (broadcast S1024x1 w) (iota .tc S1024x1 32 [0] iota_S1024x1_d0_w32)) broadcasts_S1024x1_S1024x512 (ix2 r k)
      = w + BitVec.ofNat 32 r.val := by
  refine (broadcastTo_apply _ broadcasts_S1024x1_S1024x512 (ix2 r k) (ix2 r (0 : Fin 1)) ?_).trans ?_
  · intro a
    match a with
    | ⟨0, _⟩ => rfl
    | ⟨1, _⟩ => rfl
  · show w + iota .tc S1024x1 32 [0] iota_S1024x1_d0_w32 (ix2 r (0 : Fin 1)) = _
    rw [iota_single_apply]

/-- Its right word at (r, k): the k-th id of the tile. -/
theorem idWord_apply (v7 : Vec Ideal S1x512 .i32) (r : Fin 1024) (k : Fin 512) :
    broadcastTo S1024x512 (shapeCast S1x512 v7 shapeCasts_S1x512_S1x512) broadcasts_S1x512_S1024x512 (ix2 r k) = v7 (ix2 (0 : Fin 1) k) := by
  rw [shapeCast_self]
  refine broadcastTo_apply v7 broadcasts_S1x512_S1024x512 (ix2 r k) (ix2 (0 : Fin 1) k) ?_
  intro a
  match a with
  | ⟨0, _⟩ => rfl
  | ⟨1, _⟩ => rfl

/-- A truth value widened to 32 bits and read as a signed integer is the real 1 or 0. -/
theorem sitofp_bool (c : Bool) : (FloatOps.sitofp (F := Ideal) .f32 ((BitVec.ofBool c).setWidth 32) : EReal) = if c then 1 else 0 := by
  cases c
  · show (((BitVec.setWidth 32 (BitVec.ofBool false)).toInt : ℝ) : EReal) = 0
    rw [show (BitVec.setWidth 32 (BitVec.ofBool false)).toInt = 0 from by decide]; simp
  · show (((BitVec.setWidth 32 (BitVec.ofBool true)).toInt : ℝ) : EReal) = 1
    rw [show (BitVec.setWidth 32 (BitVec.ofBool true)).toInt = 1 from by decide]; simp

/-- So entry (r, k) is 1 when the k-th id is the word of i0 * 1024 + r, else 0. -/
theorem indic_apply (i : grid0.Coords) (v7 : Vec Ideal S1x512 .i32) (r : Fin 1024) (k : Fin 512) :
    indic i v7 (ix2 r k) = if v7 (ix2 (0 : Fin 1) k) = BitVec.ofNat 32 ((i 0).val * 1024 + r.val) then 1 else 0 := by
  show FloatOps.sitofp (F := Ideal) .f32 ((IntOp.cmpi .eq
    (broadcastTo S1024x512 (addi (broadcast S1024x1 (Scalar.muli (BitVec.ofNat 32 (i 0).val) 1024#32)) (iota .tc S1024x1 32 [0] iota_S1024x1_d0_w32)) broadcasts_S1024x1_S1024x512 (ix2 r k))
    (broadcastTo S1024x512 (shapeCast S1x512 v7 shapeCasts_S1x512_S1x512) broadcasts_S1x512_S1024x512 (ix2 r k))).setWidth 32) = _
  rw [rowWord_apply, idWord_apply]
  have hw : Scalar.muli (BitVec.ofNat 32 (i 0).val) 1024#32 + BitVec.ofNat 32 r.val = BitVec.ofNat 32 ((i 0).val * 1024 + r.val) := by
    show BitVec.ofNat 32 (i 0).val * BitVec.ofNat 32 1024 + BitVec.ofNat 32 r.val = _
    rw [← BitVec.ofNat_mul, ← BitVec.ofNat_add]
  rw [hw]
  show FloatOps.sitofp (F := Ideal) .f32 ((BitVec.ofBool (BitVec.ofNat 32 ((i 0).val * 1024 + r.val) == v7 (ix2 (0 : Fin 1) k))).setWidth 32) = _
  rw [sitofp_bool]
  by_cases h : v7 (ix2 (0 : Fin 1) k) = BitVec.ofNat 32 ((i 0).val * 1024 + r.val)
  · rw [if_pos h, h]; simp
  · rw [if_neg h, if_neg]
    intro hh
    exact h (eq_of_beq hh).symm

/-! ## The accumulating step -/

/-- The accumulating step at an entry: what was there plus the tile's rows whose id is the word of the target row. -/
theorem pay2_apply (i : grid0.Coords) (v7 : Vec Ideal S1x512 .i32) (v15 : Vec Ideal S512x2048 .bf16) (v17 : Vec Ideal S1024x2048 .f32) (r : Fin 1024) (col : Fin 2048) :
    k0_pay2 i v7 v15 v17 (ix2 r col) = v17 (ix2 r col) + ∑ k : Fin 512, (if v7 (ix2 (0 : Fin 1) k) = BitVec.ofNat 32 ((i 0).val * 1024 + r.val) then v15 (ix2 k col) else 0) := by
  unfold k0_pay2
  show shapeCast S1024x2048 (addf v17 (matmul dot_S1024x512_S512x2048_S1024x2048_1_0_0_1_n_n none (indic i v7)
    (shapeCast S512x2048 v15 shapeCasts_S512x2048_S512x2048) (constant S1024x2048 .f32 0x00000000#32))) shapeCasts_S1024x2048_S1024x2048 (ix2 r col) = _
  refine (congrFun (shapeCast_self _ _) _).trans ?_
  refine (addf_apply _ _ _).trans ?_
  refine congrArg (v17 (ix2 r col) + ·) ?_
  refine (matmul_zero_apply _ _ r col).trans ?_
  refine Finset.sum_congr rfl fun k _ => ?_
  rw [indic_apply, shapeCast_self]
  by_cases h : v7 (ix2 (0 : Fin 1) k) = BitVec.ofNat 32 ((i 0).val * 1024 + r.val)
  · rw [if_pos h, if_pos h, one_mul]
  · rw [if_neg h, if_neg h, zero_mul]

end Cert.KernelIdeal.Pool

end
-- ==== Proof.Spec.lean ====
/-
  What the two programs compute, index by index, over the extended reals.

  The input `x` of shape [2, 2, 4, 49152, 128] is read as 16 batch slices of 49152 source rows of 128 channels;
  `pm` names, for every source row, its target row among 12288 (read as a signed word). The pooled mean of target
  row `T` is the sum of the source rows named `T` divided by `max eps (how many they are)`; the result is that mean
  multiplied by the transposed weight, plus the bias: entry (bc, T, e) is `sum_k mean(T, bc, k) * W(e, k) + b(e)`.

  `poolOut` and `convOut` are the two launched regions' outputs as functions of the arrays they are handed (the
  pooled mean in the folded layout [12288, 16 * 128] with the division done as a product by a given column, and
  the matrix product with a given right factor and bias row).
-/
import Idealize.ShloMosaic.PureOps.Ideal
import Idealize.ShloMosaic.Lib.ValueIdx

noncomputable section

open scoped BigOperators

namespace Cert.Spec

open Idealize.ShloMosaic Idealize.ShloMosaic.ValueIdx

/-- The index of `x` holding channel `k` of source row `s` in batch slice `bc = (b * 2 + c) * 4 + t`. -/
def xIdx (bc : Fin 16) (s : Fin 49152) (k : Fin 128) : (⟨5, ![2, 2, 4, 49152, 128]⟩ : Shape).Idx :=
  ix5 (⟨bc.val / 8, by omega⟩ : Fin 2) (⟨bc.val / 4 % 2, by omega⟩ : Fin 2) (⟨bc.val % 4, by omega⟩ : Fin 4) s k

/-- The lower bound of the divisor (the same 32-bit pattern in both programs). -/
def eps : EReal := Ideal.ofBits .f32 0x358637BD#32

/-- How many source rows name target row `T`. -/
def cnt (pm : (⟨1, ![49152]⟩ : Shape).Idx → BitVec 32) (T : Fin 12288) : EReal :=
  ∑ s : Fin 49152, if (pm (ix1 s)).toInt = (T.val : Int) then (1 : EReal) else 0

/-- The sum, over the source rows that name target row `T`, of channel `k` of batch slice `bc`. -/
def segSum (x : (⟨5, ![2, 2, 4, 49152, 128]⟩ : Shape).Idx → EReal) (pm : (⟨1, ![49152]⟩ : Shape).Idx → BitVec 32)
    (T : Fin 12288) (bc : Fin 16) (k : Fin 128) : EReal :=
  ∑ s : Fin 49152, if (pm (ix1 s)).toInt = (T.val : Int) then x (xIdx bc s k) else 0

/-- The pooled mean. -/
def meanAt (x : (⟨5, ![2, 2, 4, 49152, 128]⟩ : Shape).Idx → EReal) (pm : (⟨1, ![49152]⟩ : Shape).Idx → BitVec 32)
    (T : Fin 12288) (bc : Fin 16) (k : Fin 128) : EReal :=
  Ideal.div (segSum x pm T bc k) (max eps (cnt pm T))

/-- The result at batch slice `bc`, target row `T`, output channel `e`. -/
def outAt (x : (⟨5, ![2, 2, 4, 49152, 128]⟩ : Shape).Idx → EReal) (pm : (⟨1, ![49152]⟩ : Shape).Idx → BitVec 32)
    (W : (⟨2, ![128, 128]⟩ : Shape).Idx → EReal) (b : (⟨1, ![128]⟩ : Shape).Idx → EReal)
    (bc : Fin 16) (T : Fin 12288) (e : Fin 128) : EReal :=
  (∑ k : Fin 128, meanAt x pm T bc k * W (ix2 e k)) + b (ix1 e)

/-- The result as an array of shape [16, 12288, 128] (both programs end by reshaping it to [2, 2, 4, 12288, 128]). -/
def out3 (x : (⟨5, ![2, 2, 4, 49152, 128]⟩ : Shape).Idx → EReal) (pm : (⟨1, ![49152]⟩ : Shape).Idx → BitVec 32)
    (W : (⟨2, ![128, 128]⟩ : Shape).Idx → EReal) (b : (⟨1, ![128]⟩ : Shape).Idx → EReal) :
    (⟨3, ![16, 12288, 128]⟩ : Shape).Idx → EReal :=
  fun j => outAt x pm W b (j 0) (j 1) (j 2)

/-! ## The two launched regions as functions of what they are handed -/

/-- The pooling region's output at target row `T`, folded column `col`: the sum of the rows of `x2` whose id word
    (in the one-row array `pm2`) is the word of `T`, times the column `inv` at `T`. -/
def poolAt (x2 : (⟨2, ![49152, 2048]⟩ : Shape).Idx → EReal) (pm2 : (⟨2, ![1, 49152]⟩ : Shape).Idx → BitVec 32)
    (inv : (⟨2, ![12288, 1]⟩ : Shape).Idx → EReal) (T : Fin 12288) (col : Fin 2048) : EReal :=
  (∑ s : Fin 49152, if pm2 (ix2 (0 : Fin 1) s) = BitVec.ofNat 32 T.val then x2 (ix2 s col) else 0)
    * inv (ix2 T (0 : Fin 1))

/-- The pooling region's whole output array. -/
def poolOut (x2 : (⟨2, ![49152, 2048]⟩ : Shape).Idx → EReal) (pm2 : (⟨2, ![1, 49152]⟩ : Shape).Idx → BitVec 32)
    (inv : (⟨2, ![12288, 1]⟩ : Shape).Idx → EReal) : (⟨2, ![12288, 2048]⟩ : Shape).Idx → EReal :=
  fun j => poolAt x2 pm2 inv (j 0) (j 1)

/-- The projection region's output at batch slice `bc`, target row `T`, output channel `e`. -/
def convAt (mean3 : (⟨3, ![16, 12288, 128]⟩ : Shape).Idx → EReal) (wt : (⟨2, ![128, 128]⟩ : Shape).Idx → EReal)
    (b2 : (⟨2, ![1, 128]⟩ : Shape).Idx → EReal) (bc : Fin 16) (T : Fin 12288) (e : Fin 128) : EReal :=
  (∑ k : Fin 128, mean3 (ix3 bc T k) * wt (ix2 k e)) + b2 (ix2 (0 : Fin 1) e)

/-- The projection region's whole output array. -/
def convOut (mean3 : (⟨3, ![16, 12288, 128]⟩ : Shape).Idx → EReal) (wt : (⟨2, ![128, 128]⟩ : Shape).Idx → EReal)
    (b2 : (⟨2, ![1, 128]⟩ : Shape).Idx → EReal) : (⟨3, ![16, 12288, 128]⟩ : Shape).Idx → EReal :=
  fun j => convAt mean3 wt b2 (j 0) (j 1) (j 2)

end Cert.Spec

end
-- ==== Proof.PoolValue.lean ====
/-
  The pooling region's output array after its last grid point, over the extended reals: block `tt` is written once,
  at the point (tt, 95), with the accumulator that has by then summed all 96 source tiles.

  The accumulator after point (tt, s), at the entry (r, col), is the sum over the source rows q below (s + 1) * 512 of
  the input's entry (q, col) where the id of q is the 32-bit word of tt * 1024 + r, and of zero elsewhere: at s = 0 the
  body starts from the zero block, and each point adds the 512 terms of its own tile (a sum over an initial segment of the
  naturals splits at any point: addition of extended reals is commutative and associative, nothing else is used). At
  s = 95 the segment is all 49152 source rows, and the block written there is that sum times the reciprocal-count
  column's entry of row tt * 1024 + r. The twelve writing points' blocks cover the output's rows.
-/
import proofs.«421746_j85023172592644_2_alg».proof.Proof.PoolData
import proofs.«421746_j85023172592644_2_alg».proof.Proof.PoolPayload
import proofs.«421746_j85023172592644_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Pool

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

-- the TensorCore's buffer contents when the region is entered, over the extended reals
variable (V : (c : Dev nD) → (b : Ref sig .tc) → Buf (Elt Ideal) ((c : Thread nD τ).loc b))

/-! ## The arrays and their blocks -/

/-- The three arrays the region is handed, at their literal types, -/
abbrev x2 (c : Dev nD) : S49152x2048.Idx → EReal := V c main_v5
abbrev ids (c : Dev nD) : S1x49152.Idx → BitVec 32 := V c main_v1
abbrev inv (c : Dev nD) : S12288x1.Idx → EReal := V c main_v13
/-- and their blocks at a point. -/
abbrev xblk (c : Dev nD) (t : Fin cfg0.N) : Vec Ideal S512x2048 .bf16 := iblk V c 0 t
abbrev idblk (c : Dev nD) (t : Fin cfg0.N) : Vec Ideal S1x512 .i32 := iblk V c 1 t
abbrev invblk (c : Dev nD) (t : Fin cfg0.N) : Vec Ideal S1024x1 .f32 := iblk V c 2 t

/-- The index maps over the grid: point t = tt * 96 + s reads source tile s of the input and of the ids, and
    target tile tt of the column and of the output. -/
theorem idx_facts : ∀ t : Fin cfg0.N, win0_0.index t (0 : Fin 2) = t.val % 96 ∧ win0_0.index t (1 : Fin 2) = 0
    ∧ win0_1.index t (0 : Fin 2) = 0 ∧ win0_1.index t (1 : Fin 2) = t.val % 96
    ∧ win0_2.index t (0 : Fin 2) = t.val / 96 ∧ win0_2.index t (1 : Fin 2) = 0
    ∧ win0_3.index t (0 : Fin 2) = t.val / 96 ∧ win0_3.index t (1 : Fin 2) = 0
    ∧ (grid0.coords t 0).val = t.val / 96 ∧ (grid0.coords t 1).val = t.val % 96 :=
  (by decide +kernel : ∀ t : Fin grid0.N, _)

/-- Row k of the input's block at point (tt, s) is row s * 512 + k of the input. -/
theorem xblk_apply (c : Dev nD) (t : Fin cfg0.N) (k : Fin 512) (col : Fin 2048) (q : Fin 49152) (hq : q.val = (t.val % 96) * 512 + k.val) :
    xblk V c t (ix2 k col) = x2 V c (ix2 q col) := by
  obtain ⟨e0, e1, -⟩ := idx_facts t
  unfold xblk iblk
  rw [View.read_apply]
  show V c main_v5 (((cfg0.win 0).blk t).view.emb (ix2 k col)) = V c main_v5 (ix2 q col)
  refine congrArg (V c main_v5) (funext fun a => Fin.ext ?_)
  match a with
  | ⟨0, _⟩ => show win0_0.index t (0 : Fin 2) * 512 + 1 * k.val = q.val; rw [e0, hq]; omega
  | ⟨1, _⟩ => show win0_0.index t (1 : Fin 2) * 2048 + 1 * col.val = col.val; rw [e1]; omega

/-- Id k of the ids' block at point (tt, s) is id s * 512 + k. -/
theorem idblk_apply (c : Dev nD) (t : Fin cfg0.N) (k : Fin 512) (q : Fin 49152) (hq : q.val = (t.val % 96) * 512 + k.val) :
    idblk V c t (ix2 (0 : Fin 1) k) = ids V c (ix2 (0 : Fin 1) q) := by
  obtain ⟨-, -, e0, e1, -⟩ := idx_facts t
  unfold idblk iblk
  rw [View.read_apply]
  show V c main_v1 (((cfg0.win 1).blk t).view.emb (ix2 (0 : Fin 1) k)) = V c main_v1 (ix2 (0 : Fin 1) q)
  refine congrArg (V c main_v1) (funext fun a => Fin.ext ?_)
  match a with
  | ⟨0, _⟩ => show win0_1.index t (0 : Fin 2) * 1 + 1 * 0 = 0; rw [e0]
  | ⟨1, _⟩ => show win0_1.index t (1 : Fin 2) * 512 + 1 * k.val = q.val; rw [e1, hq]; omega

/-- Row r of the column's block at point (tt, s) is row tt * 1024 + r of the column. -/
theorem invblk_apply (c : Dev nD) (t : Fin cfg0.N) (r : Fin 1024) (T : Fin 12288) (hT : T.val = (t.val / 96) * 1024 + r.val) :
    invblk V c t (ix2 r (0 : Fin 1)) = inv V c (ix2 T (0 : Fin 1)) := by
  obtain ⟨-, -, -, -, e0, e1, -⟩ := idx_facts t
  unfold invblk iblk
  rw [View.read_apply]
  show V c main_v13 (((cfg0.win 2).blk t).view.emb (ix2 r (0 : Fin 1))) = V c main_v13 (ix2 T (0 : Fin 1))
  refine congrArg (V c main_v13) (funext fun a => Fin.ext ?_)
  match a with
  | ⟨0, _⟩ => show win0_2.index t (0 : Fin 2) * 1024 + 1 * r.val = T.val; rw [e0, hT]; omega
  | ⟨1, _⟩ => show win0_2.index t (1 : Fin 2) * 1 + 1 * 0 = 0; rw [e1]

/-! ## The accumulator after a point -/

/-- What source row q gives to the entry of target row T in column col: the input's entry when the id of q is the word of
    T, else nothing (and nothing past the last source row). -/
def term (c : Dev nD) (T : ℕ) (col : Fin 2048) (q : ℕ) : EReal :=
  if h : q < 49152 then (if ids V c (ix2 (0 : Fin 1) ⟨q, h⟩) = BitVec.ofNat 32 T then x2 V c (ix2 ⟨q, h⟩ col) else 0) else 0

/-- One point's step at an entry: point (tt, s) adds the terms of the 512 source rows of tile s for target row tt * 1024 + r. -/
theorem step_apply (c : Dev nD) (t : Fin cfg0.N) (B : Vec Ideal S1024x2048 .f32) (r : Fin 1024) (col : Fin 2048) :
    k0_pay2 (grid0.coords t) (idblk V c t) (xblk V c t) B (ix2 r col)
      = B (ix2 r col) + ∑ k ∈ Finset.range 512, term V c ((t.val / 96) * 1024 + r.val) col ((t.val % 96) * 512 + k) := by
  have hN : cfg0.N = 1152 := N_0
  have ht : t.val < 1152 := hN ▸ t.isLt
  obtain ⟨-, -, -, -, -, -, -, -, g0, -⟩ := idx_facts t
  refine (pay2_apply (grid0.coords t) (idblk V c t) (xblk V c t) B r col).trans ?_
  refine congrArg (B (ix2 r col) + ·) ?_
  rw [Finset.sum_range]
  refine Finset.sum_congr rfl fun k _ => ?_
  have hk : k.val < 512 := k.isLt
  have hq : (t.val % 96) * 512 + k.val < 49152 := by omega
  rw [idblk_apply V c t k ⟨(t.val % 96) * 512 + k.val, hq⟩ rfl, xblk_apply V c t k col ⟨(t.val % 96) * 512 + k.val, hq⟩ rfl, g0]
  unfold term
  rw [dif_pos hq]

/-- THE ACCUMULATOR after point (tt, s), at the entry (r, col): the terms of the source rows below (s + 1) * 512 for
    target row tt * 1024 + r — zero at a reset, one tile's terms more at each point. -/
theorem acc_eq (c : Dev nD) : ∀ (n : ℕ) (hn : n < cfg0.N) (r : Fin 1024) (col : Fin 2048),
    accAt V c n hn (ix2 r col) = ∑ q ∈ Finset.range ((n % 96 + 1) * 512), term V c ((n / 96) * 1024 + r.val) col q := by
  intro n
  induction n with
  | zero =>
    intro hn r col
    rw [accAt_eq V c ⟨0, hn⟩]
    refine (step_apply V c ⟨0, hn⟩ (accBefore V c 0 hn) r col).trans ?_
    unfold accBefore
    rw [dif_pos (Nat.zero_mod 96), pay1_apply, zero_add]
    refine Finset.sum_congr rfl fun k _ => ?_
    show term V c (0 / 96 * 1024 + r.val) col (0 % 96 * 512 + k) = _
    simp only [Nat.zero_mod, Nat.zero_div, Nat.zero_mul, Nat.zero_add]
  | succ m ih =>
    intro hn r col
    rw [accAt_eq V c ⟨m + 1, hn⟩]
    refine (step_apply V c ⟨m + 1, hn⟩ (accBefore V c (m + 1) hn) r col).trans ?_
    show accBefore V c (m + 1) hn (ix2 r col) + ∑ k ∈ Finset.range 512, term V c ((m + 1) / 96 * 1024 + r.val) col ((m + 1) % 96 * 512 + k) = _
    unfold accBefore
    by_cases h : (m + 1) % 96 = 0
    · rw [dif_pos h, pay1_apply, zero_add, h]
      refine Finset.sum_congr rfl fun k _ => ?_
      rw [Nat.zero_mul, Nat.zero_add]
    · rw [dif_neg h]
      show accAt V c m _ (ix2 r col) + _ = _
      rw [ih (Nat.lt_of_succ_lt hn) r col, show m / 96 = (m + 1) / 96 from by omega, show m % 96 + 1 = (m + 1) % 96 from by omega,
        show ((m + 1) % 96 + 1) * 512 = (m + 1) % 96 * 512 + 512 from by omega, Finset.sum_range_add]

/-! ## The written blocks and the array -/

/-- WHAT A WRITING POINT WRITES: at (tt, 95) the accumulator has met all 96 source tiles, so its entry (r, col) is the whole
    sum for target row tt * 1024 + r; times the column's entry of that row it is the pooled entry: the written block is
    block tt of the pooled array. -/
theorem flushed_eq (c : Dev nD) (t : Fin cfg0.N) (hf : (cfg0.win 3).flush t = true) :
    (dat V c).flushed 3 t = ((cfg0.win 3).blk t).view.read (Elt Ideal) (Cert.Spec.poolOut (x2 V c) (ids V c) (inv V c)) := by
  have hN : cfg0.N = 1152 := N_0
  have ht : t.val < 1152 := hN ▸ t.isLt
  have h95 : t.val % 96 = 95 := (flush0_3 t).mp hf
  obtain ⟨-, -, -, -, -, -, e0, e1, -⟩ := idx_facts t
  show (cfg0.win 3).cut (grid0.coords t) ((dat V c).after 3 t) = _
  rw [after_3]
  funext y
  obtain ⟨r, col, rfl⟩ : ∃ (r : Fin 1024) (col : Fin 2048), y = ix2 r col := ⟨y 0, y 1, eq_ix2 y⟩
  rw [View.read_apply]
  have hr : r.val < 1024 := r.isLt
  have hT : (t.val / 96) * 1024 + r.val < 12288 := by omega
  have hj : ((cfg0.win 3).blk t).view.emb (ix2 r col) = (ix2 (⟨(t.val / 96) * 1024 + r.val, hT⟩ : Fin 12288) col : S12288x2048.Idx) := by
    funext a
    apply Fin.ext
    match a with
    | ⟨0, _⟩ => show win0_3.index t (0 : Fin 2) * 1024 + 1 * r.val = (t.val / 96) * 1024 + r.val; rw [e0]; omega
    | ⟨1, _⟩ => show win0_3.index t (1 : Fin 2) * 2048 + 1 * col.val = col.val; rw [e1]; omega
  show k0_pay3 (accAt V c t.val t.isLt) (invblk V c t) (ix2 r col)
    = Cert.Spec.poolOut (x2 V c) (ids V c) (inv V c) (((cfg0.win 3).blk t).view.emb (ix2 r col))
  rw [hj]
  refine (pay3_apply (accAt V c t.val t.isLt) (invblk V c t) r col).trans ?_
  rw [acc_eq V c t.val t.isLt r col, invblk_apply V c t r ⟨(t.val / 96) * 1024 + r.val, hT⟩ rfl, h95]
  show _ = Cert.Spec.poolAt (x2 V c) (ids V c) (inv V c) ⟨(t.val / 96) * 1024 + r.val, hT⟩ col
  unfold Cert.Spec.poolAt
  refine congrArg (· * inv V c (ix2 (⟨(t.val / 96) * 1024 + r.val, hT⟩ : Fin 12288) (0 : Fin 1))) ?_
  rw [show (95 + 1) * 512 = 49152 from rfl, Finset.sum_range]
  refine Finset.sum_congr rfl fun s _ => ?_
  unfold term
  rw [dif_pos s.isLt]

/-- An index of the output is in point t's block when each coordinate is in the block's range on its axis. -/
theorem mem_blk (t : Fin cfg0.N) (i : S12288x2048.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v14).slice (win0_3.rect t)).set ↔ _
  rw [View.set_slice_whole, Rect.mem_set_unit]
  exact Iff.rfl

/-- Every entry of the output lies in the block of a writing point: row T in that of the point (T / 1024, 95). -/
theorem cover (i : S12288x2048.Idx) : ∃ t : Fin cfg0.N, (cfg0.win 3).flush t = true ∧ i ∈ ((cfg0.win 3).blk t).view.set := by
  have hN : cfg0.N = 1152 := N_0
  have hi0 : (i 0).val < 12288 := (i 0).isLt
  have hi1 : (i 1).val < 2048 := (i 1).isLt
  have hlt : (i 0).val / 1024 * 96 + 95 < cfg0.N := by rw [hN]; omega
  refine ⟨⟨(i 0).val / 1024 * 96 + 95, hlt⟩, (flush0_3 _).mpr (by show ((i 0).val / 1024 * 96 + 95) % 96 = 95; omega), ?_⟩
  obtain ⟨-, -, -, -, -, -, e0, e1, -⟩ := idx_facts ⟨(i 0).val / 1024 * 96 + 95, hlt⟩
  rw [mem_blk]
  intro a
  match a with
  | ⟨0, _⟩ =>
    show win0_3.index ⟨(i 0).val / 1024 * 96 + 95, hlt⟩ (0 : Fin 2) * 1024 ≤ (i 0).val ∧ (i 0).val < win0_3.index ⟨(i 0).val / 1024 * 96 + 95, hlt⟩ (0 : Fin 2) * 1024 + 1024
    rw [e0]
    show ((i 0).val / 1024 * 96 + 95) / 96 * 1024 ≤ (i 0).val ∧ (i 0).val < ((i 0).val / 1024 * 96 + 95) / 96 * 1024 + 1024
    omega
  | ⟨1, _⟩ =>
    show win0_3.index ⟨(i 0).val / 1024 * 96 + 95, hlt⟩ (1 : Fin 2) * 2048 ≤ (i 1).val ∧ (i 1).val < win0_3.index ⟨(i 0).val / 1024 * 96 + 95, hlt⟩ (1 : Fin 2) * 2048 + 2048
    rw [e1]
    omega

/-- After the region, its output array is the pooled sums times the reciprocal-count column, as a function of the
    three arrays the region was handed. -/
theorem pool_final (c : Dev nD) :
    (dat V c).arrAt 3 cfg0.N = Cert.Spec.poolOut (V c main_v5) (V c main_v1) (V c main_v13) :=
  (dat V c).arrAt_eq_of_cover 3 (Cert.Spec.poolOut (x2 V c) (ids V c) (inv V c)) (fun t hf => flushed_eq V c t hf) cover

end Cert.KernelIdeal.Pool

end
-- ==== Proof.ConvValue.lean ====
/-
  The projection region's output array after its last grid point, over the extended reals: block (bc, tile) is
  written at its own point with the block of means times the transposed weight plus the bias row.
-/
import proofs.«421746_j85023172592644_2_alg».proof.Proof.ConvData
import proofs.«421746_j85023172592644_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Conv

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

-- the TensorCore's buffer contents when the region is entered, over the extended reals
variable (V : (c : Dev nD) → (b : Ref sig .tc) → Buf (Elt Ideal) ((c : Thread nD τ).loc b))

/-! ## The matrix product, entry by entry -/

/-- The left factor's index at output entry `i` and contraction index `q`: row `i 0`, -/
theorem lhs_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
/-- column `q`. -/
theorem lhs_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
/-- The right factor's index there: row `q`, -/
theorem rhs_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
/-- column `i 1`. -/
theorem rhs_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The product of a 4096 x 128 matrix and a 128 x 128 matrix into a zero accumulator, entry by entry: the sum over
    the 128 contracted channels of row entry times column entry. -/
theorem matmul_zero_apply (a : FVec Ideal S4096x128 .bf16) (b : FVec Ideal S128x128 .bf16) (r : Fin 4096) (e : Fin 128) :
    matmul (F := Ideal) dot_S4096x128_S128x128_S4096x128_1_0_0_1_n_n none a b (constant (F := Ideal) S4096x128 .f32 0x00000000#32) (ix2 r e)
      = ∑ k : Fin 128, a (ix2 r k) * b (ix2 k e) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 r e) ((ValueIdx.contrEquiv1 dot_S4096x128_S128x128_S4096x128_1_0_0_1_n_n 128 rfl rfl).symm k) = ix2 r k := funext fun a => Fin.ext (by
    match a with
    | ⟨0, _⟩ => exact lhs_0 _ _
    | ⟨1, _⟩ => exact (lhs_1 _ _).trans hk)
  have er : dot_S4096x128_S128x128_S4096x128_1_0_0_1_n_n.rhsIdx (ix2 r e) ((ValueIdx.contrEquiv1 dot_S4096x128_S128x128_S4096x128_1_0_0_1_n_n 128 rfl rfl).symm k) = ix2 k e := funext fun a => Fin.ext (by
    match a with
    | ⟨0, _⟩ => exact (rhs_0 _ _).trans hk
    | ⟨1, _⟩ => exact rhs_1 _ _)
  rw [el, er]

/-! ## The body's stored value, entry by entry -/

/-- Row `r` of the block of means times column `e` of the weight, plus entry `e` of the bias row: the leading unit
    axis is dropped and restored at equal row-major positions, the narrowing of the two factors is the identity over
    the extended reals, and the bias row is repeated down the 4096 rows. -/
theorem pay_apply (x0 : Vec Ideal S1x4096x128 .f32) (x1 : Vec Ideal S128x128 .f32) (x2 : Vec Ideal S1x128 .f32)
    (r : Fin 4096) (e : Fin 128) :
    k1_pay1 (F := Ideal) x0 x1 x2 (ix3 (0 : Fin 1) r e)
      = (∑ k : Fin 128, x0 (ix3 (0 : Fin 1) r k) * x1 (ix2 k e)) + x2 (ix2 (0 : Fin 1) e) := by
  unfold k1_pay1
  refine (shapeCast_apply _ shapeCasts_S4096x128_S1x4096x128 (ix3 (0 : Fin 1) r e) (ix2 r e) ?_).trans ?_
  · rw [Shape.rowMajor_val_two, Shape.rowMajor_val_three]; simp
  rw [addf_apply]
  rw [matmul_zero_apply]
  congr 1
  · refine Finset.sum_congr rfl fun k _ => ?_
    rw [truncf_apply, truncf_apply, shapeCast_self]
    congr 1
    exact shapeCast_apply x0 shapeCasts_S1x4096x128_S4096x128 (ix2 r k) (ix3 (0 : Fin 1) r k)
      (by rw [Shape.rowMajor_val_two, Shape.rowMajor_val_three]; simp)
  · rw [shapeCast_self]
    exact broadcastTo_apply x2 broadcasts_S1x128_S4096x128 (ix2 r e) (ix2 (0 : Fin 1) e) (fun a => match a with
      | ⟨0, _⟩ => by show 0 = if (1 : Nat) = 1 then 0 else (r : Nat); rw [if_pos rfl]
      | ⟨1, _⟩ => by show (e : Nat) = if (128 : Nat) = 1 then 0 else (e : Nat); rw [if_neg (by decide)])

/-! ## The windows' index maps over the grid -/

/-- Over the 48 points: the block of means and the output block sit at the same place (batch slice, row tile, whole
    channel axis), the weight and the bias row are whole, and the block indices stay in the grid's ranges. -/
theorem idx_facts : ∀ t : Fin cfg1.N, win1_0.index t (0 : Fin 3) = win1_3.index t (0 : Fin 3)
    ∧ win1_0.index t (1 : Fin 3) = win1_3.index t (1 : Fin 3)
    ∧ win1_0.index t (2 : Fin 3) = 0 ∧ win1_3.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) < 16 ∧ win1_3.index t (1 : Fin 3) < 3 :=
  (by decide +kernel : ∀ t : Fin grid1.N, _)

/-- Every (batch slice, row tile) is some point's output block. -/
theorem idx_onto : ∀ (q0 : Fin 16) (q1 : Fin 3), ∃ t : Fin cfg1.N, win1_3.index t = ![q0.val, q1.val, 0] :=
  (by decide +kernel : ∀ (q0 : Fin 16) (q1 : Fin 3), ∃ t : Fin grid1.N, win1_3.index t = ![q0.val, q1.val, 0])

/-! ## What one point writes back -/

/-- Three arrays read through the input windows at point `t`, multiplied and summed along the channel axis and shifted
    by the bias, are the projection of the arrays read through the output window there: the block of means and the
    output block sit at the same rows of the same batch slice, the weight and the bias are whole. A block's coordinate
    is its block index times the block's extent plus the coordinate inside the block. -/
theorem block_read (A : S16x12288x128.Idx → EReal) (W : S128x128.Idx → EReal) (B : S1x128.Idx → EReal)
    (t : Fin cfg1.N) (r : Fin 4096) (e : Fin 128) :
    (∑ k : Fin 128, A (((cfg1.win 0).blk t).view.emb (ix3 (0 : Fin 1) r k)) * W (((cfg1.win 1).blk t).view.emb (ix2 k e)))
        + B (((cfg1.win 2).blk t).view.emb (ix2 (0 : Fin 1) e))
      = Cert.Spec.convOut A W B (((cfg1.win 3).blk t).view.emb (ix3 (0 : Fin 1) r e)) := by
  obtain ⟨e0, e1, e2, e3, e4, e5, e6, e7, e8, e9⟩ := idx_facts t
  unfold Cert.Spec.convOut Cert.Spec.convAt
  have h0 : ∀ k : Fin 128, ((cfg1.win 0).blk t).view.emb (ix3 (0 : Fin 1) r k)
      = ix3 ((((cfg1.win 3).blk t).view.emb (ix3 (0 : Fin 1) r e)) 0) ((((cfg1.win 3).blk t).view.emb (ix3 (0 : Fin 1) r e)) 1) k := by
    intro k; funext a; apply Fin.ext
    match a with
    | ⟨0, _⟩ => show win1_0.index t (0 : Fin 3) * 1 + 1 * 0 = win1_3.index t (0 : Fin 3) * 1 + 1 * 0; omega
    | ⟨1, _⟩ => show win1_0.index t (1 : Fin 3) * 4096 + 1 * r.val = win1_3.index t (1 : Fin 3) * 4096 + 1 * r.val; omega
    | ⟨2, _⟩ => show win1_0.index t (2 : Fin 3) * 128 + 1 * k.val = k.val; omega
  have h1 : ∀ k : Fin 128, ((cfg1.win 1).blk t).view.emb (ix2 k e)
      = ix2 k ((((cfg1.win 3).blk t).view.emb (ix3 (0 : Fin 1) r e)) 2) := by
    intro k; funext a; apply Fin.ext
    match a with
    | ⟨0, _⟩ => show win1_1.index t (0 : Fin 2) * 128 + 1 * k.val = k.val; omega
    | ⟨1, _⟩ => show win1_1.index t (1 : Fin 2) * 128 + 1 * e.val = win1_3.index t (2 : Fin 3) * 128 + 1 * e.val; omega
  have h2 : ((cfg1.win 2).blk t).view.emb (ix2 (0 : Fin 1) e)
      = ix2 (0 : Fin 1) ((((cfg1.win 3).blk t).view.emb (ix3 (0 : Fin 1) r e)) 2) := by
    funext a; apply Fin.ext
    match a with
    | ⟨0, _⟩ => show win1_2.index t (0 : Fin 2) * 1 + 1 * 0 = 0; omega
    | ⟨1, _⟩ => show win1_2.index t (1 : Fin 2) * 128 + 1 * e.val = win1_3.index t (2 : Fin 3) * 128 + 1 * e.val; omega
  rw [h2]
  simp only [h0, h1]
  rfl

/-- What point `t` writes back is block `t` of the projection of the three arrays the region was handed. -/
theorem flushed_eq (c : Dev nD) (t : Fin cfg1.N) :
    (dat V c).flushed 3 t = ((cfg1.win 3).blk t).view.read (Elt Ideal)
      (Cert.Spec.convOut (V c main_v16) (V c main_v17) (V c main_v18)) := by
  show (cfg1.win 3).cut (grid1.coords t) ((dat V c).after 3 t) = _
  rw [after_3]
  funext j
  obtain ⟨z, r, e, rfl⟩ : ∃ (z : Fin 1) (r : Fin 4096) (e : Fin 128), j = ix3 z r e := ⟨j 0, j 1, j 2, eq_ix3 j⟩
  obtain rfl : z = 0 := Subsingleton.elim _ _
  refine (pay_apply _ _ _ r e).trans ?_
  exact block_read (V c main_v16) (V c main_v17) (V c main_v18) t r e

/-! ## The output blocks tile the array -/

/-- An index of the output array is in point `t`'s block iff each coordinate is in the block's range on its axis. -/
theorem mem_blk (t : Fin cfg1.N) (i : S16x12288x128.Idx) :
    i ∈ ((cfg1.win 3).blk t).view.set ↔ ∀ a : Fin 3, win1_3.index t a * S1x4096x128.size a ≤ (i a).val
      ∧ (i a).val < win1_3.index t a * S1x4096x128.size a + S1x4096x128.size a := by
  show i ∈ ((View.whole main_v19).slice (win1_3.rect t)).set ↔ _
  rw [View.set_slice_whole, Rect.mem_set_unit]
  exact Iff.rfl

/-- Every index (bc, T, e) of the output array lies in the block of the point (bc, T / 4096), which writes it back. -/
theorem cover (i : S16x12288x128.Idx) :
    ∃ t : Fin cfg1.N, (cfg1.win 3).flush t = true ∧ i ∈ ((cfg1.win 3).blk t).view.set := by
  have hi0 : (i 0).val < 16 := (i 0).isLt
  have hi1 : (i 1).val < 12288 := (i 1).isLt
  have hi2 : (i 2).val < 128 := (i 2).isLt
  obtain ⟨t, ht⟩ := idx_onto ⟨(i 0).val, hi0⟩ ⟨(i 1).val / 4096, by omega⟩
  have q0 : win1_3.index t (0 : Fin 3) = (i 0).val := congrFun ht 0
  have q1 : win1_3.index t (1 : Fin 3) = (i 1).val / 4096 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 4096 ≤ (i 1).val ∧ (i 1).val < win1_3.index t (1 : Fin 3) * 4096 + 4096; omega
  | ⟨2, _⟩ => show win1_3.index t (2 : Fin 3) * 128 ≤ (i 2).val ∧ (i 2).val < win1_3.index t (2 : Fin 3) * 128 + 128; omega

/-! ## The array after the region -/

/-- After the region, its output array is the matrix product plus bias, as a function of the three arrays the
    region was handed. -/
theorem conv_final (c : Dev nD) :
    (dat V c).arrAt 3 cfg1.N = Cert.Spec.convOut (V c main_v16) (V c main_v17) (V c main_v18) :=
  (dat V c).arrAt_eq_of_cover 3 (Cert.Spec.convOut (V c main_v16) (V c main_v17) (V c main_v18))
    (fun t _ => flushed_eq V c t) cover

end Cert.KernelIdeal.Conv

end
-- ==== Proof.KernelSpec.lean ====
/-
  The kernel program's result written as the composition it is built from: the input folded to [49152, 16 * 128],
  the parent ids clamped to [0, 12287] as a one-row array, the column of reciprocals of the clipped counts of the
  clamped ids, the pooling region's output of these three, unfolded to [16, 12288, 128], and the projection region's
  output of that with the transposed weight and the bias row.
-/
import proofs.«421746_j85023172592644_2_alg».proof.Proof.Spec
import Idealize.ShloMosaic.PureOps

noncomputable section

open scoped BigOperators

namespace Cert.Spec

open Idealize.ShloMosaic Idealize.ShloMosaic.ValueIdx

/-- A parent id clamped to [0, 12287], as signed words. -/
def clampId (w : BitVec 32) : BitVec 32 := IntOp.minsi 12287#32 (IntOp.maxsi 0#32 w)

/-- The value 1 as the programs spell it. -/
def one32 : EReal := Ideal.ofBits .f32 0x3F800000#32

/-- The input with the 16 batch slices folded into the columns: entry (s, bc * 128 + k). -/
def foldX (x : (⟨5, ![2, 2, 4, 49152, 128]⟩ : Shape).Idx → EReal) : (⟨2, ![49152, 2048]⟩ : Shape).Idx → EReal :=
  fun j => x (xIdx (⟨(j 1).val / 128, by have h : (j 1).val < 2048 := (j 1).isLt; omega⟩ : Fin 16) (j 0)
    (⟨(j 1).val % 128, by omega⟩ : Fin 128))

/-- The clamped ids as a one-row array. -/
def ids2 (pm : (⟨1, ![49152]⟩ : Shape).Idx → BitVec 32) : (⟨2, ![1, 49152]⟩ : Shape).Idx → BitVec 32 :=
  fun j => clampId (pm (ix1 (j 1)))

/-- How many clamped ids name target row `T` (each hit counted as the programs' literal one). -/
def cntC (pm : (⟨1, ![49152]⟩ : Shape).Idx → BitVec 32) (T : Fin 12288) : EReal :=
  ∑ s : Fin 49152, if (clampId (pm (ix1 s))).toInt = (T.val : Int) then one32 else 0

/-- The column of reciprocals of the clipped counts. -/
def invCol (pm : (⟨1, ![49152]⟩ : Shape).Idx → BitVec 32) : (⟨2, ![12288, 1]⟩ : Shape).Idx → EReal :=
  fun j => Ideal.div one32 (max eps (cntC pm (j 0)))

/-- A [12288, 16 * 128] array read as [16, 12288, 128]. -/
def unfold3 (p : (⟨2, ![12288, 2048]⟩ : Shape).Idx → EReal) : (⟨3, ![16, 12288, 128]⟩ : Shape).Idx → EReal :=
  fun j => p (ix2 (j 1) (⟨(j 0).val * 128 + (j 2).val, by
    have h0 := (j 0).isLt; have h2 := (j 2).isLt; show (j 0).val * 128 + (j 2).val < 2048
    have h0' : (j 0).val < 16 := h0; have h2' : (j 2).val < 128 := h2; omega⟩ : Fin 2048))

/-- The transposed weight. -/
def wT (W : (⟨2, ![128, 128]⟩ : Shape).Idx → EReal) : (⟨2, ![128, 128]⟩ : Shape).Idx → EReal :=
  fun j => W (ix2 (j 1) (j 0))

/-- The bias as a one-row array. -/
def bRow (b : (⟨1, ![128]⟩ : Shape).Idx → EReal) : (⟨2, ![1, 128]⟩ : Shape).Idx → EReal :=
  fun j => b (ix1 (j 1))

/-- The kernel program's result before its last reshape. -/
def kernelOut3 (x : (⟨5, ![2, 2, 4, 49152, 128]⟩ : Shape).Idx → EReal) (pm : (⟨1, ![49152]⟩ : Shape).Idx → BitVec 32)
    (W : (⟨2, ![128, 128]⟩ : Shape).Idx → EReal) (b : (⟨1, ![128]⟩ : Shape).Idx → EReal) :
    (⟨3, ![16, 12288, 128]⟩ : Shape).Idx → EReal :=
  convOut (unfold3 (poolOut (foldX x) (ids2 pm) (invCol pm))) (wT W) (bRow b)

end Cert.Spec

end
-- ==== Proof.LibScatterAddVec.lean ====
/-
  An accumulating scatter of scalars into a vector, read at an index given by its coordinate, over the extended reals.

  An accumulating scatter adds every update entry to the operand entry it lands on.  For a vector operand `[N]`,
  scatter indices `[R, 1]` and updates `[R]` there is no window axis: the update `r` lands at the position its
  scatter-index word names (read as a signed integer and NOT clamped), and an update whose landing position is outside
  the operand is dropped.  So an operand entry receives the sum of the updates whose word names it; with all updates
  equal to one this counts the scatter positions that name the entry.
-/
import Idealize.ShloMosaic.PureOps.Contract
import Idealize.ShloMosaic.PureOps.Ideal
import Idealize.ShloMosaic.Lib.ValueIdx
import Idealize.ShloMosaic.Lib.ValueIdxRank1

noncomputable section

open scoped BigOperators

namespace Cert.LibScatterAddVec

open Idealize.ShloMosaic Idealize.ShloMosaic.ValueIdx

/-- An operand axis is among the window axes' targets exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-- A sum over the indices of a vector is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Entries of a vector: `vec.at[idx].add(upd)` -/

/-- The dimension numbers of a scatter of scalars into a vector: operand `[N]`, scatter indices `[R, 1]`, updates
    `[R]`; the updates have no window axis, the operand's only axis is inserted and is the one the scatter index
    names. -/
abbrev vecDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec
variable {N R w : Nat} (wf : ScatterDims.WF ⟨1, ![N]⟩ ⟨2, ![R, 1]⟩ ⟨1, ![R]⟩ [] [0] [0] 1)
  (idx : IVec ⟨2, ![R, 1]⟩ w)

/-- An update's start is its scatter-index word, read signed. -/
theorem vec_start0 (r : Fin R) :
    (vecDims N R wf).start (ix1 r) idx 0 = (idx (ix2 r (0 : Fin 1))).toInt := by
  unfold ScatterDims.start
  rw [dif_pos (show (0 : Fin 1) ∈ (vecDims N R wf).scatterDimsToOperandDims from List.mem_singleton.mpr rfl)]
  have hsi : (vecDims N R wf).siIdx (ix1 r) ⟨List.idxOf (0 : Fin 1) (vecDims N R wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- The operand's axis is inserted: no window coordinate there. -/
theorem vec_window0 (r : Fin R) : (vecDims N R wf).window (ix1 r) 0 = 0 := by
  unfold ScatterDims.window
  rw [dif_neg (show (0 : Fin 1) ∉ (vecDims N R wf).sKept from
    fun h => (mem_sKept _ _).mp h (List.mem_singleton.mpr rfl))]

/-- Where the update `r` lands: at `n` exactly when its scatter-index word, read signed, is `n`. -/
theorem vec_lands_iff (r : Fin R) (n : Fin N) :
    (vecDims N R wf).resultIdx? (ix1 r) idx = some (ix1 n)
      ↔ (idx (ix2 r (0 : Fin 1))).toInt = (n.val : Int) := by
  unfold ScatterDims.resultIdx?
  constructor
  · intro h
    split at h
    · have hf := Option.some.inj h
      have h0 : ((vecDims N R wf).start (ix1 r) idx 0 + ((vecDims N R wf).window (ix1 r) 0 : Int)).toNat = n.val :=
        congrArg (fun f : (⟨1, ![N]⟩ : Shape).Idx => (f 0).val) hf
      rename_i hall
      have hb := (hall 0).1
      rw [vec_start0, vec_window0] at h0 hb
      omega
    · exact absurd h (by simp)
  · intro hv
    have hall : ∀ a : Fin 1, 0 ≤ (vecDims N R wf).start (ix1 r) idx a + ((vecDims N R wf).window (ix1 r) a : Int)
        ∧ (vecDims N R wf).start (ix1 r) idx a + ((vecDims N R wf).window (ix1 r) a : Int)
          < ((⟨1, ![N]⟩ : Shape).size a : Int) := by
      intro a
      match a with
      | ⟨0, _⟩ =>
        show 0 ≤ (vecDims N R wf).start (ix1 r) idx 0 + ((vecDims N R wf).window (ix1 r) 0 : Int)
          ∧ (vecDims N R wf).start (ix1 r) idx 0 + ((vecDims N R wf).window (ix1 r) 0 : Int) < (N : Int)
        rw [vec_start0, vec_window0, hv]
        have := n.isLt
        omega
    rw [dif_pos hall]
    refine congrArg some (funext fun a => Fin.ext ?_)
    match a with
    | ⟨0, _⟩ =>
      show ((vecDims N R wf).start (ix1 r) idx 0 + ((vecDims N R wf).window (ix1 r) 0 : Int)).toNat = n.val
      rw [vec_start0, vec_window0, hv]
      omega

/-- AN ACCUMULATING SCATTER INTO A VECTOR READ AT `n`: the operand entry plus the sum of the updates `r` whose
    scatter-index word names `n`. -/
theorem scatterAdd_vec_apply (x : (⟨1, ![N]⟩ : Shape).Idx → EReal) (upd : (⟨1, ![R]⟩ : Shape).Idx → EReal)
    (n : Fin N) :
    Ideal.hostScatterAdd (vecDims N R wf) x idx upd (ix1 n)
      = x (ix1 n) + ∑ r : Fin R, if (idx (ix2 r (0 : Fin 1))).toInt = (n.val : Int) then upd (ix1 r) else 0 := by
  unfold Ideal.hostScatterAdd
  refine congrArg (x (ix1 n) + ·) ?_
  rw [Finset.sum_filter, sum_idx1]
  refine Finset.sum_congr rfl fun r _ => ?_
  by_cases hv : (idx (ix2 r (0 : Fin 1))).toInt = (n.val : Int)
  · rw [if_pos hv, if_pos ((vec_lands_iff wf idx r n).mpr hv)]
  · rw [if_neg hv, if_neg (fun h => hv ((vec_lands_iff wf idx r n).mp h))]

end Vec

end Cert.LibScatterAddVec

end
-- ==== Proof.HostReads.lean ====
/-
  The host stretches of the kernel program read back: each buffer a region is handed, and the result buffer, as a
  term of the argument arrays and of the regions' outputs. Nothing here depends on the precondition.

  First the layout terms the stretches build, each identified index by index with the function it is: the input
  folded so that the 16 batch slices lie side by side in the columns; the parent ids clamped to [0, 12287] and laid
  out as one row; the column of reciprocals of the clipped counts, the count of a target row being the accumulating
  scatter of ones at the clamped ids; the folded pooled array read back as 16 slices; the weight with its coordinates
  exchanged; the bias as one row. Then the buffers at each boundary of the program, read back through the stretches
  to the argument arrays (no stretch writes an argument, and a region changes only its own output array).
-/
import proofs.«421746_j85023172592644_2_alg».proof.Proof.Fold
import proofs.«421746_j85023172592644_2_alg».proof.Proof.PoolValue
import proofs.«421746_j85023172592644_2_alg».proof.Proof.ConvValue
import proofs.«421746_j85023172592644_2_alg».proof.Proof.KernelSpec
import proofs.«421746_j85023172592644_2_alg».proof.Proof.LibScatterAddVec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Run

open Idealize.ShloMosaic Idealize.ShloMosaic.TcCoe Idealize.ShloMosaic.ValueIdx
open Idealize.SL Idealize.SL.Sem
open Cert.KernelIdeal Cert.KernelIdeal.Gen
open Cert.LibScatterAddVec
open scoped BigOperators

/-! ## The layout terms, index by index -/

/-- The weight read with its two coordinates exchanged. -/
theorem wT_eq (W : S128x128.Idx → EReal) (h : S128x128.Transposes [1, 0] S128x128) :
    transpose S128x128 [1, 0] W h = Cert.Spec.wT W := by
  funext j
  exact transpose_apply [1, 0] W h j (ix2 (j 1) (j 0)) (fun b => match b with
    | ⟨0, _⟩ => rfl
    | ⟨1, _⟩ => rfl)

/-- The bias as a one-row array: entry (0, e) is entry e. -/
theorem bRow_eq (b : S128.Idx → EReal) (h : S128.ShapeCasts S1x128) :
    shapeCast S1x128 b h = Cert.Spec.bRow b := by
  funext j
  refine shapeCast_apply b h j (ix1 (j 1)) ?_
  rw [Shape.rowMajor_val_one, Shape.rowMajor_val_two]
  have h0 : (j 0).val < 1 := (j 0).isLt
  show (j 1).val = (j 0).val * 128 + (j 1).val
  omega

/-- The folded [12288, 16 * 128] array read as [16, 12288, 128]: entry (bc, T, k) is entry (T, bc * 128 + k). -/
theorem unfold3_eq (p : S12288x2048.Idx → EReal) (h1 : S12288x2048.ShapeCasts S12288x16x128)
    (h2 : S12288x16x128.Transposes [1, 0, 2] S16x12288x128) :
    transpose S16x12288x128 [1, 0, 2] (shapeCast S12288x16x128 p h1) h2 = Cert.Spec.unfold3 p := by
  funext j
  rw [transpose_apply [1, 0, 2] (shapeCast S12288x16x128 p h1) h2 j (ix3 (j 1) (j 0) (j 2)) (fun b => match b with
    | ⟨0, _⟩ => rfl
    | ⟨1, _⟩ => rfl
    | ⟨2, _⟩ => rfl)]
  refine shapeCast_apply p h1 _ (ix2 (j 1) (⟨(j 0).val * 128 + (j 2).val, by
    have h0 : (j 0).val < 16 := (j 0).isLt; have h2 : (j 2).val < 128 := (j 2).isLt; omega⟩ : Fin 2048)) ?_
  rw [Shape.rowMajor_val_two, Shape.rowMajor_val_three]
  have h0 : (j 0).val < 16 := (j 0).isLt; have h2 : (j 2).val < 128 := (j 2).isLt
  show (j 1).val * 2048 + ((j 0).val * 128 + (j 2).val) = ((j 1).val * 16 + (j 0).val) * 128 + (j 2).val
  omega

/-- The input with its 16 batch slices folded into the columns: entry (s, bc * 128 + k) of the folded array is
    channel k of source row s of slice bc; the change of format is the identity. -/
theorem foldX_eq (x : S2x2x4x49152x128.Idx → EReal) (hb : FTy.bits .bf16 < FTy.bits .f32)
    (h1 : S2x2x4x49152x128.ShapeCasts S16x49152x128) (h2 : S16x49152x128.Transposes [1, 0, 2] S49152x16x128)
    (h3 : S49152x16x128.ShapeCasts S49152x2048) :
    shapeCast S49152x2048 (transpose S49152x16x128 [1, 0, 2]
      (shapeCast S16x49152x128 (truncf (F := Ideal) .bf16 (x : FVec Ideal S2x2x4x49152x128 .f32) hb) h1) h2) h3 = Cert.Spec.foldX x := by
  funext j
  have hj0 : (j 0).val < 49152 := (j 0).isLt
  have hj1 : (j 1).val < 2048 := (j 1).isLt
  have hbc : (j 1).val / 128 < 16 := by omega
  have hk : (j 1).val % 128 < 128 := by omega
  rw [shapeCast_apply _ h3 j (ix3 (j 0) (⟨(j 1).val / 128, hbc⟩ : Fin 16) (⟨(j 1).val % 128, hk⟩ : Fin 128)) (by
    rw [Shape.rowMajor_val_two, Shape.rowMajor_val_three]
    show ((j 0).val * 16 + (j 1).val / 128) * 128 + (j 1).val % 128 = (j 0).val * 2048 + (j 1).val
    omega)]
  rw [transpose_apply [1, 0, 2] _ h2 _ (ix3 (⟨(j 1).val / 128, hbc⟩ : Fin 16) (j 0) (⟨(j 1).val % 128, hk⟩ : Fin 128)) (fun b => match b with
    | ⟨0, _⟩ => rfl
    | ⟨1, _⟩ => rfl
    | ⟨2, _⟩ => rfl)]
  rw [shapeCast_apply _ h1 _ (Cert.Spec.xIdx (⟨(j 1).val / 128, hbc⟩ : Fin 16) (j 0) (⟨(j 1).val % 128, hk⟩ : Fin 128)) (by
    rw [Shape.rowMajor_val_three, Shape.rowMajor_val_five]
    show ((((j 1).val / 128 / 8 * 2 + (j 1).val / 128 / 4 % 2) * 4 + (j 1).val / 128 % 4) * 49152 + (j 0).val) * 128 + (j 1).val % 128 = ((j 1).val / 128 * 49152 + (j 0).val) * 128 + (j 1).val % 128
    omega)]
  rfl

/-- The program's clamp of every parent id to [0, 12287]: the maximum with 0, then the minimum with 12287. -/
def clipIds (pm : S49152.Idx → BitVec 32) : S49152.Idx → BitVec 32 :=
  minsi (broadcastInDim S49152 ![] bcast_S_S49152 (constantI S_ 32 12287#32))
    (maxsi (broadcastInDim S49152 ![] bcast_S_S49152 (constantI S_ 32 0#32)) pm)

theorem clipIds_apply (pm : S49152.Idx → BitVec 32) (i : S49152.Idx) : clipIds pm i = Cert.Spec.clampId (pm i) := by
  show IntOp.minsi (broadcastInDim S49152 ![] bcast_S_S49152 (constantI S_ 32 12287#32) i)
    (IntOp.maxsi (broadcastInDim S49152 ![] bcast_S_S49152 (constantI S_ 32 0#32) i) (pm i)) = _
  rw [broadcastInDim_apply _ bcast_S_S49152 (constantI S_ 32 12287#32) i ix0 (fun a => a.elim0),
    broadcastInDim_apply _ bcast_S_S49152 (constantI S_ 32 0#32) i ix0 (fun a => a.elim0)]
  rfl

/-- The clamped ids as a one-row array. -/
theorem ids2_eq (pm : S49152.Idx → BitVec 32) (h : S49152.ShapeCasts S1x49152) :
    shapeCast S1x49152 (clipIds pm) h = Cert.Spec.ids2 pm := by
  funext j
  rw [shapeCast_apply _ h j (ix1 (j 1)) (by
    rw [Shape.rowMajor_val_one, Shape.rowMajor_val_two]
    have h0 : (j 0).val < 1 := (j 0).isLt
    show (j 1).val = (j 0).val * 49152 + (j 1).val
    omega)]
  exact clipIds_apply pm _

/-- The count scatter read at a target row: it starts from zero and adds the literal one for every source row
    whose clamped id, read signed, is the row. -/
theorem count_apply (pm : S49152.Idx → BitVec 32) (T : Fin 12288) :
    Host.scatterAdd (F := Ideal) scatter_S12288_S49152x1_S49152_n_0_0_1
        (broadcastInDim S12288 ![] bcast_S_S12288 (constant (F := Ideal) S_ .f32 0x00000000#32))
        (broadcastInDim S49152x1 ![0] bcast_S49152_S49152x1_0 (clipIds pm))
        (broadcastInDim S49152 ![] bcast_S_S49152 (constant (F := Ideal) S_ .f32 0x3F800000#32)) (ix1 T)
      = Cert.Spec.cntC pm T := by
  show Ideal.hostScatterAdd scatter_S12288_S49152x1_S49152_n_0_0_1 _ _ _ (ix1 T) = _
  rw [show scatter_S12288_S49152x1_S49152_n_0_0_1 = vecDims 12288 49152 scatter_S12288_S49152x1_S49152_n_0_0_1_wf from rfl,
    scatterAdd_vec_apply]
  rw [broadcastInDim_apply _ bcast_S_S12288 _ (ix1 T) ix0 (fun a => a.elim0)]
  show Ideal.ofBits .f32 0x00000000#32 + _ = _
  rw [Ideal.ofBits_zero_f32, zero_add]
  unfold Cert.Spec.cntC
  refine Finset.sum_congr rfl fun r _ => ?_
  rw [broadcastInDim_apply _ bcast_S49152_S49152x1_0 (clipIds pm) (ix2 r (0 : Fin 1)) (ix1 r) (fun a => match a with
      | ⟨0, _⟩ => by show r.val = if (49152 : Nat) = 1 then 0 else r.val; rw [if_neg (by decide)]),
    clipIds_apply, broadcastInDim_apply _ bcast_S_S49152 _ (ix1 r) ix0 (fun a => a.elim0)]
  rfl

/-- The count of every target row, as the program computes it. -/
def countTerm (pm : S49152.Idx → BitVec 32) : FVec Ideal S12288 .f32 :=
  Host.scatterAdd (F := Ideal) scatter_S12288_S49152x1_S49152_n_0_0_1
    (broadcastInDim S12288 ![] bcast_S_S12288 (constant (F := Ideal) S_ .f32 0x00000000#32))
    (broadcastInDim S49152x1 ![0] bcast_S49152_S49152x1_0 (clipIds pm))
    (broadcastInDim S49152 ![] bcast_S_S49152 (constant (F := Ideal) S_ .f32 0x3F800000#32))

/-- The host's quotient of two arrays is the quotient entry by entry. -/
theorem hostDivf_apply {s : Shape} {φ : FTy} (a b : FVec Ideal s φ) (i : s.Idx) :
    Host.divf a b i = Ideal.div (a i) (b i) := rfl

/-- The column of reciprocals: entry (T, 0) is the literal one divided by the larger of the lower bound and the
    count of T. -/
theorem invCol_eq (pm : S49152.Idx → BitVec 32) (h : S12288.ShapeCasts S12288x1) :
    shapeCast S12288x1 (Host.divf (F := Ideal) (broadcastInDim S12288 ![] bcast_S_S12288 (constant (F := Ideal) S_ .f32 0x3F800000#32))
      (maximumf (F := Ideal) (broadcastInDim S12288 ![] bcast_S_S12288 (constant (F := Ideal) S_ .f32 0x358637BD#32))
        (countTerm pm))) h = Cert.Spec.invCol pm := by
  funext j
  rw [shapeCast_apply _ h j (ix1 (j 0)) (by
    rw [Shape.rowMajor_val_one, Shape.rowMajor_val_two]
    have h1 : (j 1).val < 1 := (j 1).isLt
    show (j 0).val = (j 0).val * 1 + (j 1).val
    omega)]
  rw [hostDivf_apply, maximumf_apply]
  rw [broadcastInDim_apply _ bcast_S_S12288 (constant (F := Ideal) S_ .f32 0x3F800000#32) (ix1 (j 0)) ix0 (fun a => a.elim0),
    broadcastInDim_apply _ bcast_S_S12288 (constant (F := Ideal) S_ .f32 0x358637BD#32) (ix1 (j 0)) ix0 (fun a => a.elim0)]
  rw [constant_apply, constant_apply]
  exact congrArg (fun z : EReal => Ideal.div Cert.Spec.one32 (max Cert.Spec.eps z)) (count_apply pm (j 0))

/-! ## The buffers at each boundary, read back -/

variable (m : (ℓ : Loc nD τ sig) → Buf (Elt Ideal) ℓ) (c : Dev nD)

/-- The folded input at the pooling region's entry. -/
theorem entry_v5 : (W5 m c (Proc.devRef .tc main_v5) : S49152x2048.Idx → EReal)
    = Cert.Spec.foldX (m ((c.tc : Thread nD τ).loc main_arg0)) := by
  refine Eq.trans ?_ (foldX_eq (m ((c.tc : Thread nD τ).loc main_arg0)) bitsLt_bf16_f32 shapeCasts_S2x2x4x49152x128_S16x49152x128
    transposes_S16x49152x128_S49152x16x128_1_0_2 shapeCasts_S49152x16x128_S49152x2048)
  show StableHlo.after hostOps0_4 (W4 m c) (Proc.devRef .tc main_v5) = _
  after_results
  rfl

/-- The one-row array of clamped ids at the pooling region's entry. -/
theorem entry_v1 : (W5 m c (Proc.devRef .tc main_v1) : S1x49152.Idx → BitVec 32)
    = Cert.Spec.ids2 (m ((c.tc : Thread nD τ).loc main_arg1)) := by
  refine Eq.trans ?_ (ids2_eq (m ((c.tc : Thread nD τ).loc main_arg1)) shapeCasts_S49152_S1x49152)
  show StableHlo.after hostOps0_4 (W4 m c) (Proc.devRef .tc main_v1) = _
  after_results
  rfl

/-- The column of reciprocal counts at the pooling region's entry. -/
theorem entry_v13 : (W5 m c (Proc.devRef .tc main_v13) : S12288x1.Idx → EReal)
    = Cert.Spec.invCol (m ((c.tc : Thread nD τ).loc main_arg1)) := by
  refine Eq.trans ?_ (invCol_eq (m ((c.tc : Thread nD τ).loc main_arg1)) shapeCasts_S12288_S12288x1)
  show StableHlo.after hostOps0_4 (W4 m c) (Proc.devRef .tc main_v13) = _
  after_results
  rfl

/-- The pooling region leaves its output array at the pooled array of the three terms. -/
theorem exit_v14 : (W6 m c (Proc.devRef .tc main_v14) : S12288x2048.Idx → EReal)
    = Cert.Spec.poolOut (Cert.Spec.foldX (m ((c.tc : Thread nD τ).loc main_arg0)))
        (Cert.Spec.ids2 (m ((c.tc : Thread nD τ).loc main_arg1))) (Cert.Spec.invCol (m ((c.tc : Thread nD τ).loc main_arg1))) := by
  refine ((W6_arr m c 3).trans (Pool.pool_final (V5 m) c)).trans ?_
  show Cert.Spec.poolOut (W5 m c (Proc.devRef .tc main_v5)) (W5 m c (Proc.devRef .tc main_v1)) (W5 m c (Proc.devRef .tc main_v13)) = _
  rw [entry_v5, entry_v1, entry_v13]

/-- The weight and the bias are as at launch when the pooling region is left: no stretch and no region writes them. -/
theorem exit_arg2 : W6 m c (Proc.devRef .tc main_arg2) = m ((c.tc : Thread nD τ).loc main_arg2) := by
  refine (W6_of_ne m c main_arg2 (by decide)).trans ?_
  show StableHlo.after hostOps0_4 (W4 m c) (Proc.devRef .tc main_arg2) = _
  after_results
theorem exit_arg3 : W6 m c (Proc.devRef .tc main_arg3) = m ((c.tc : Thread nD τ).loc main_arg3) := by
  refine (W6_of_ne m c main_arg3 (by decide)).trans ?_
  show StableHlo.after hostOps0_4 (W4 m c) (Proc.devRef .tc main_arg3) = _
  after_results

/-- The pooled array read as 16 slices at the projection region's entry. -/
theorem entry_v16 : (W7 m c (Proc.devRef .tc main_v16) : S16x12288x128.Idx → EReal)
    = Cert.Spec.unfold3 (W6 m c (Proc.devRef .tc main_v14)) := by
  refine Eq.trans ?_ (unfold3_eq (W6 m c (Proc.devRef .tc main_v14)) shapeCasts_S12288x2048_S12288x16x128
    transposes_S12288x16x128_S16x12288x128_1_0_2)
  show StableHlo.after hostOps1 (W6 m c) (Proc.devRef .tc main_v16) = _
  after_results
  rfl

/-- The transposed weight at the projection region's entry. -/
theorem entry_v17 : (W7 m c (Proc.devRef .tc main_v17) : S128x128.Idx → EReal)
    = Cert.Spec.wT (m ((c.tc : Thread nD τ).loc main_arg2)) := by
  refine Eq.trans ?_ (wT_eq (m ((c.tc : Thread nD τ).loc main_arg2)) transposes_S128x128_S128x128_1_0)
  rw [← exit_arg2 m c]
  show StableHlo.after hostOps1 (W6 m c) (Proc.devRef .tc main_v17) = _
  after_results

/-- The bias row at the projection region's entry. -/
theorem entry_v18 : (W7 m c (Proc.devRef .tc main_v18) : S1x128.Idx → EReal)
    = Cert.Spec.bRow (m ((c.tc : Thread nD τ).loc main_arg3)) := by
  refine Eq.trans ?_ (bRow_eq (m ((c.tc : Thread nD τ).loc main_arg3)) shapeCasts_S128_S1x128)
  rw [← exit_arg3 m c]
  show StableHlo.after hostOps1 (W6 m c) (Proc.devRef .tc main_v18) = _
  after_results
  rfl

/-- The projection region leaves its output array at the projection of the three entry arrays. -/
theorem exit_v19 : (W8 m c (Proc.devRef .tc main_v19) : S16x12288x128.Idx → EReal)
    = Cert.Spec.kernelOut3 (m ((c.tc : Thread nD τ).loc main_arg0)) (m ((c.tc : Thread nD τ).loc main_arg1))
        (m ((c.tc : Thread nD τ).loc main_arg2)) (m ((c.tc : Thread nD τ).loc main_arg3)) := by
  refine ((W8_arr m c 3).trans (Conv.conv_final (V7 m) c)).trans ?_
  show Cert.Spec.convOut (W7 m c (Proc.devRef .tc main_v16)) (W7 m c (Proc.devRef .tc main_v17)) (W7 m c (Proc.devRef .tc main_v18)) = _
  rw [entry_v16, entry_v17, entry_v18, exit_v14]
  rfl

/-- The result buffer at the return is the composed kernel function of the four arguments, reshaped. -/
theorem result_eq_kernelOut3 (m : (ℓ : Loc nD τ sig) → Buf (Elt Ideal) ℓ) (c : Dev nD) :
    W9 m c (Proc.devRef .tc main_v20)
      = shapeCast S2x2x4x12288x128 (Cert.Spec.kernelOut3 (m ((c.tc : Thread nD τ).loc main_arg0)) (m ((c.tc : Thread nD τ).loc main_arg1))
          (m ((c.tc : Thread nD τ).loc main_arg2)) (m ((c.tc : Thread nD τ).loc main_arg3))) shapeCasts_S16x12288x128_S2x2x4x12288x128 := by
  rw [← exit_v19 m c]
  show StableHlo.after hostOps2 (W8 m c) (Proc.devRef .tc main_v20) = _
  after_results
  rfl

end Cert.KernelIdeal.Run

end
-- ==== Proof.Bridge.lean ====
/-
  With every parent id in [0, 12288) the composed kernel function is the specification: the clamp changes no id; an
  id's word equals a target row's word exactly when its signed value is the row; a sum times the reciprocal of the
  clipped count is the sum divided by it, the clipped count being a positive real; the matrix product is the same sum
  with the weight read transposed.
-/
import proofs.«421746_j85023172592644_2_alg».proof.Proof.KernelSpec
import Idealize.ShloMosaic.PureOps.Ideal
import Idealize.ShloMosaic.Lib.ValueIdx

noncomputable section

open scoped BigOperators

namespace Cert.Spec

open Idealize.ShloMosaic Idealize.ShloMosaic.ValueIdx

/-! ## The ids -/

/-- A signed word in [0, 12288) is its own clamp to [0, 12287]. -/
theorem clampId_of_range (w : BitVec 32) (h0 : 0 ≤ w.toInt) (h1 : w.toInt < 12288) : clampId w = w := by
  have hz : (0#32 : BitVec 32).toInt = 0 := by decide
  have hm : (12287#32 : BitVec 32).toInt = 12287 := by decide
  have h1' : IntOp.maxsi 0#32 w = w := by
    unfold IntOp.maxsi
    rw [if_neg]
    simp only [BitVec.slt, hz, decide_eq_true_eq]; omega
  unfold clampId
  rw [h1']
  unfold IntOp.minsi
  rw [if_neg]
  simp only [BitVec.slt, hm, decide_eq_true_eq]; omega

/-- A nonnegative signed word is the word of a row below 12288 exactly when its signed value is the row. -/
theorem eq_ofNat_iff (w : BitVec 32) (T : Fin 12288) (h0 : 0 ≤ w.toInt) :
    w = BitVec.ofNat 32 T.val ↔ w.toInt = (T.val : Int) := by
  have hT := T.isLt
  have hw := w.isLt
  rw [← BitVec.toNat_inj, BitVec.toNat_ofNat]
  rw [BitVec.toInt_eq_toNat_cond] at h0 ⊢
  split_ifs at h0 ⊢ <;> omega

/-! ## The constants -/

/-- The programs' literal one is the real 1. -/
theorem one32_eq_one : one32 = 1 := by
  unfold one32
  simp [Ideal.ofBits, Ideal.ieee, -EReal.coe_mul]; norm_num

/-- The lower bound of the divisor is a positive real. -/
theorem eps_eq : eps = (((8796093 : ℝ) * (2 : ℝ) ^ (-43 : Int) : ℝ) : EReal) := by
  unfold eps
  simp [Ideal.ofBits, Ideal.ieee, -EReal.coe_mul]

/-- The lower bound of the divisor is a positive real. -/
theorem eps_pos : ∃ r : ℝ, 0 < r ∧ eps = ((r : ℝ) : EReal) :=
  ⟨_, by positivity, eps_eq⟩

/-! ## The counts -/

/-- A finite sum of zeros and ones is a natural number. -/
theorem sum_ite_one_natCast {α : Type} [DecidableEq α] (t : Finset α) (p : α → Prop) [DecidablePred p] :
    ∃ n : ℕ, (∑ i ∈ t, if p i then (1 : EReal) else 0) = (((n : ℕ) : ℝ) : EReal) := by
  induction t using Finset.induction_on with
  | empty => exact ⟨0, by simp⟩
  | insert a t ha ih =>
    obtain ⟨n, hn⟩ := ih
    rw [Finset.sum_insert ha, hn]
    by_cases hp : p a
    · refine ⟨n + 1, ?_⟩
      rw [if_pos hp, ← EReal.coe_one, ← EReal.coe_add]
      exact congrArg Real.toEReal (by push_cast; ring)
    · exact ⟨n, by rw [if_neg hp, zero_add]⟩

/-- The count of a target row is a natural number. -/
theorem cnt_eq_natCast (pm : (⟨1, ![49152]⟩ : Shape).Idx → BitVec 32) (T : Fin 12288) :
    ∃ n : ℕ, cnt pm T = (((n : ℕ) : ℝ) : EReal) :=
  sum_ite_one_natCast Finset.univ _

/-- The clipped count of a target row is a nonzero real. -/
theorem clipped_cnt (pm : (⟨1, ![49152]⟩ : Shape).Idx → BitVec 32) (T : Fin 12288) :
    ∃ c : ℝ, c ≠ 0 ∧ max eps (cnt pm T) = ((c : ℝ) : EReal) := by
  obtain ⟨r, hr, he⟩ := eps_pos
  obtain ⟨n, hn⟩ := cnt_eq_natCast pm T
  refine ⟨max r (n : ℝ), (lt_max_of_lt_left hr).ne', ?_⟩
  rw [he, hn]
  exact (EReal.coe_strictMono.monotone.map_max).symm

/-- A sum times the reciprocal of a nonzero real is the sum divided by it, whatever the sum. -/
theorem mul_div_one (S : EReal) {c : ℝ} (hc : c ≠ 0) :
    S * Ideal.div 1 ((c : ℝ) : EReal) = Ideal.div S ((c : ℝ) : EReal) := by
  rw [Ideal.div_coe hc, Ideal.div_coe hc, one_mul]

/-! ## The pooled mean -/

/-- The count of the clamped ids, each hit the literal one, is the count of the ids. -/
theorem cntC_eq_cnt (pm : (⟨1, ![49152]⟩ : Shape).Idx → BitVec 32)
    (hr : ∀ s : Fin 49152, 0 ≤ (pm (ix1 s)).toInt ∧ (pm (ix1 s)).toInt < 12288) (T : Fin 12288) :
    cntC pm T = cnt pm T := by
  unfold cntC cnt
  refine Finset.sum_congr rfl (fun s _ => ?_)
  rw [clampId_of_range _ (hr s).1 (hr s).2, one32_eq_one]

/-- The pooling region's entry (T, bc * 128 + k) of the folded input, the clamped ids and the column of reciprocals
    is the pooled mean: the folded column splits back into (bc, k), the selected rows are the same, and the product
    with the reciprocal of the clipped count is the quotient by it. -/
theorem poolAt_eq_meanAt (x : (⟨5, ![2, 2, 4, 49152, 128]⟩ : Shape).Idx → EReal) (pm : (⟨1, ![49152]⟩ : Shape).Idx → BitVec 32)
    (hr : ∀ s : Fin 49152, 0 ≤ (pm (ix1 s)).toInt ∧ (pm (ix1 s)).toInt < 12288)
    (bc : Fin 16) (T : Fin 12288) (k : Fin 128) (h : bc.val * 128 + k.val < 2048) :
    poolAt (foldX x) (ids2 pm) (invCol pm) T (⟨bc.val * 128 + k.val, h⟩ : Fin 2048) = meanAt x pm T bc k := by
  have hb := bc.isLt
  have hk := k.isLt
  have hq : (⟨(bc.val * 128 + k.val) / 128, by omega⟩ : Fin 16) = bc := Fin.ext (by show (bc.val * 128 + k.val) / 128 = bc.val; omega)
  have hm : (⟨(bc.val * 128 + k.val) % 128, by omega⟩ : Fin 128) = k := Fin.ext (by show (bc.val * 128 + k.val) % 128 = k.val; omega)
  have hsum : (∑ s : Fin 49152, if ids2 pm (ix2 (0 : Fin 1) s) = BitVec.ofNat 32 T.val
      then foldX x (ix2 s (⟨bc.val * 128 + k.val, h⟩ : Fin 2048)) else 0) = segSum x pm T bc k := by
    unfold segSum
    refine Finset.sum_congr rfl (fun s _ => ?_)
    show (if clampId (pm (ix1 s)) = BitVec.ofNat 32 T.val
        then x (xIdx (⟨(bc.val * 128 + k.val) / 128, by omega⟩ : Fin 16) s (⟨(bc.val * 128 + k.val) % 128, by omega⟩ : Fin 128))
        else 0) = _
    rw [clampId_of_range _ (hr s).1 (hr s).2, hq, hm]
    simp only [eq_ofNat_iff _ T (hr s).1]
  obtain ⟨c, hc, hmax⟩ := clipped_cnt pm T
  show (∑ s : Fin 49152, if ids2 pm (ix2 (0 : Fin 1) s) = BitVec.ofNat 32 T.val
      then foldX x (ix2 s (⟨bc.val * 128 + k.val, h⟩ : Fin 2048)) else 0) * Ideal.div one32 (max eps (cntC pm T))
    = Ideal.div (segSum x pm T bc k) (max eps (cnt pm T))
  rw [hsum, cntC_eq_cnt pm hr, one32_eq_one, hmax, mul_div_one _ hc]

/-! ## The result -/

/-- The composed kernel function is the specification when every parent id is in range. -/
theorem kernelOut3_eq_out3 (x : (⟨5, ![2, 2, 4, 49152, 128]⟩ : Shape).Idx → EReal) (pm : (⟨1, ![49152]⟩ : Shape).Idx → BitVec 32)
    (W : (⟨2, ![128, 128]⟩ : Shape).Idx → EReal) (b : (⟨1, ![128]⟩ : Shape).Idx → EReal)
    (hr : ∀ s : Fin 49152, 0 ≤ (pm (ix1 s)).toInt ∧ (pm (ix1 s)).toInt < 12288) :
    kernelOut3 x pm W b = out3 x pm W b := by
  funext j
  obtain ⟨bc, T, e, rfl⟩ : ∃ (bc : Fin 16) (T : Fin 12288) (e : Fin 128), j = ix3 bc T e := ⟨j 0, j 1, j 2, eq_ix3 j⟩
  show (∑ k : Fin 128, poolAt (foldX x) (ids2 pm) (invCol pm) T
        (⟨bc.val * 128 + k.val, by have hb := bc.isLt; have hk := k.isLt; omega⟩ : Fin 2048) * W (ix2 e k)) + b (ix1 e)
      = (∑ k : Fin 128, meanAt x pm T bc k * W (ix2 e k)) + b (ix1 e)
  refine congrArg (· + b (ix1 e)) (Finset.sum_congr rfl (fun k _ => ?_))
  rw [poolAt_eq_meanAt x pm hr bc T k]

end Cert.Spec

end
-- ==== Proof.KernelValue.lean ====
/-
  The kernel program's result over the extended reals, under the precondition's range of the parent ids: the host
  stretches and the two regions compose to a function of the four arguments, and that function is the specification.
-/
import proofs.«421746_j85023172592644_2_alg».proof.Proof.HostReads
import proofs.«421746_j85023172592644_2_alg».proof.Proof.Bridge

set_option maxRecDepth 16384

noncomputable section

namespace Cert.KernelIdeal.Run

open Idealize.ShloMosaic Idealize.ShloMosaic.TcCoe Idealize.ShloMosaic.ValueIdx
open Idealize.SL Idealize.SL.Sem
open Cert.KernelIdeal Cert.KernelIdeal.Gen

/-- With the parent ids in range, the result buffer at the return is the specification reshaped. -/
theorem kernel_result (m : (ℓ : Loc nD τ sig) → Buf (Elt Ideal) ℓ) (c : Dev nD)
    (hr : ∀ s : Fin 49152, 0 ≤ ((m ((c.tc : Thread nD τ).loc main_arg1) : S49152.Idx → BitVec 32) (ix1 s)).toInt
      ∧ ((m ((c.tc : Thread nD τ).loc main_arg1) : S49152.Idx → BitVec 32) (ix1 s)).toInt < 12288) :
    W9 m c (Proc.devRef .tc main_v20)
      = shapeCast S2x2x4x12288x128 (Cert.Spec.out3 (m ((c.tc : Thread nD τ).loc main_arg0)) (m ((c.tc : Thread nD τ).loc main_arg1))
          (m ((c.tc : Thread nD τ).loc main_arg2)) (m ((c.tc : Thread nD τ).loc main_arg3))) shapeCasts_S16x12288x128_S2x2x4x12288x128 := by
  rw [result_eq_kernelOut3 m c, Cert.Spec.kernelOut3_eq_out3 _ _ _ _ hr]

end Cert.KernelIdeal.Run

end
-- ==== Proof.LibScatterAddRows3.lean ====
/-
  An accumulating scatter of whole rank-2 slabs into a rank-3 array, read at an index given by its coordinates, over
  the extended reals.

  An accumulating scatter adds every update entry to the operand entry it lands on.  Where an update lands is its
  start (the scatter-index word for the scattered axis, read as a signed integer and NOT clamped; zero on the two
  window axes) plus its window coordinate; an update whose landing position is outside the operand is dropped.  For an
  operand `[N, A, B]`, scatter indices `[R, 1]` and updates `[R, A, B]` whose axes 1 and 2 are the window axes, the update
  `(r, a, b)` lands in slab `idx[r, 0]` at `(a, b)`, so an operand entry `(n, a, b)` receives the sum, over the scatter
  positions `r` whose word names slab `n`, of the update entries `(r, a, b)`.
-/
import Idealize.ShloMosaic.PureOps.Contract
import Idealize.ShloMosaic.PureOps.Ideal
import Idealize.ShloMosaic.Lib.ValueIdx

noncomputable section

open scoped BigOperators

namespace Cert.LibScatterAddRows3

open Idealize.ShloMosaic Idealize.ShloMosaic.ValueIdx

/-- An operand axis is among the window axes' targets exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Slabs of a rank-3 array: `x.at[idx, :, :].add(upd)` -/

/-- The dimension numbers of a scatter of whole slabs: operand `[N, A, B]`, scatter indices `[R, 1]`, updates
    `[R, A, B]`; the updates' axes 1 and 2 are the window axes, the operand's axis 0 is inserted and is the one the
    scatter index names. -/
abbrev rows3Dims (N A B R : Nat)
    (wf : ScatterDims.WF ⟨3, ![N, A, B]⟩ ⟨2, ![R, 1]⟩ ⟨3, ![R, A, B]⟩ [1, 2] [0] [0] 1) :
    ScatterDims ⟨3, ![N, A, B]⟩ ⟨2, ![R, 1]⟩ ⟨3, ![R, A, B]⟩ where
  updateWindowDims := [1, 2]
  insertedWindowDims := [0]
  scatterDimsToOperandDims := [0]
  indexVectorDim := 1
  wf := wf

section Rows3
variable {N A B R w : Nat} (wf : ScatterDims.WF ⟨3, ![N, A, B]⟩ ⟨2, ![R, 1]⟩ ⟨3, ![R, A, B]⟩ [1, 2] [0] [0] 1)
  (idx : IVec ⟨2, ![R, 1]⟩ w)

/-- On the scattered axis an update's start is its scatter-index word, read signed. -/
theorem rows3_start0 (r : Fin R) (a : Fin A) (b : Fin B) :
    (rows3Dims N A B R wf).start (ix3 r a b) idx 0 = (idx (ix2 r (0 : Fin 1))).toInt := by
  unfold ScatterDims.start
  rw [dif_pos (show (0 : Fin 3) ∈ (rows3Dims N A B R wf).scatterDimsToOperandDims from List.mem_singleton.mpr rfl)]
  have hsi : (rows3Dims N A B R wf).siIdx (ix3 r a b) ⟨List.idxOf (0 : Fin 3) (rows3Dims N A B R wf).scatterDimsToOperandDims,
      List.idxOf_lt_length_iff.2 (List.mem_singleton.mpr rfl)⟩ = ix2 r (0 : Fin 1) := by
    funext c; refine Fin.ext ?_
    match c with
    | ⟨0, _⟩ => rfl
    | ⟨1, _⟩ => rfl
  rw [hsi]

/-- On the first window axis the start is zero. -/
theorem rows3_start1 (r : Fin R) (a : Fin A) (b : Fin B) : (rows3Dims N A B R wf).start (ix3 r a b) idx 1 = 0 := by
  unfold ScatterDims.start
  rw [dif_neg (show (1 : Fin 3) ∉ (rows3Dims N A B R wf).scatterDimsToOperandDims from
    fun h => absurd (List.mem_singleton.mp h) (show ¬ ((1 : Fin 3) = 0) by decide))]

/-- On the second window axis the start is zero. -/
theorem rows3_start2 (r : Fin R) (a : Fin A) (b : Fin B) : (rows3Dims N A B R wf).start (ix3 r a b) idx 2 = 0 := by
  unfold ScatterDims.start
  rw [dif_neg (show (2 : Fin 3) ∉ (rows3Dims N A B R wf).scatterDimsToOperandDims from
    fun h => absurd (List.mem_singleton.mp h) (show ¬ ((2 : Fin 3) = 0) by decide))]

/-- The scattered axis is inserted: no window coordinate there. -/
theorem rows3_window0 (r : Fin R) (a : Fin A) (b : Fin B) : (rows3Dims N A B R wf).window (ix3 r a b) 0 = 0 := by
  unfold ScatterDims.window
  rw [dif_neg (show (0 : Fin 3) ∉ (rows3Dims N A B R wf).sKept from
    fun h => (mem_sKept _ _).mp h (List.mem_singleton.mpr rfl))]

/-- The window coordinate on axis 1 is the update's middle coordinate. -/
theorem rows3_window1 (r : Fin R) (a : Fin A) (b : Fin B) : (rows3Dims N A B R wf).window (ix3 r a b) 1 = a.val := by
  unfold ScatterDims.window
  rw [dif_pos (show (1 : Fin 3) ∈ (rows3Dims N A B R wf).sKept from
    (mem_sKept _ _).mpr fun h => absurd (List.mem_singleton.mp h) (show ¬ ((1 : Fin 3) = 0) by decide))]
  rfl

/-- The window coordinate on axis 2 is the update's last coordinate. -/
theorem rows3_window2 (r : Fin R) (a : Fin A) (b : Fin B) : (rows3Dims N A B R wf).window (ix3 r a b) 2 = b.val := by
  unfold ScatterDims.window
  rw [dif_pos (show (2 : Fin 3) ∈ (rows3Dims N A B R wf).sKept from
    (mem_sKept _ _).mpr fun h => absurd (List.mem_singleton.mp h) (show ¬ ((2 : Fin 3) = 0) by decide))]
  rfl

/-- Where the update `(r, a, b)` lands: at `(n, a', b')` exactly when its scatter-index word, read signed, is `n` and
    `a = a'`, `b = b'`. -/
theorem rows3_lands_iff (r : Fin R) (a : Fin A) (b : Fin B) (n : Fin N) (a' : Fin A) (b' : Fin B) :
    (rows3Dims N A B R wf).resultIdx? (ix3 r a b) idx = some (ix3 n a' b')
      ↔ (idx (ix2 r (0 : Fin 1))).toInt = (n.val : Int) ∧ a = a' ∧ b = b' := by
  unfold ScatterDims.resultIdx?
  constructor
  · intro h
    split at h
    · have hf := Option.some.inj h
      have h0 : ((rows3Dims N A B R wf).start (ix3 r a b) idx 0 + ((rows3Dims N A B R wf).window (ix3 r a b) 0 : Int)).toNat = n.val :=
        congrArg (fun f : (⟨3, ![N, A, B]⟩ : Shape).Idx => (f 0).val) hf
      have h1 : ((rows3Dims N A B R wf).start (ix3 r a b) idx 1 + ((rows3Dims N A B R wf).window (ix3 r a b) 1 : Int)).toNat = a'.val :=
        congrArg (fun f : (⟨3, ![N, A, B]⟩ : Shape).Idx => (f 1).val) hf
      have h2 : ((rows3Dims N A B R wf).start (ix3 r a b) idx 2 + ((rows3Dims N A B R wf).window (ix3 r a b) 2 : Int)).toNat = b'.val :=
        congrArg (fun f : (⟨3, ![N, A, B]⟩ : Shape).Idx => (f 2).val) hf
      rename_i hall
      have hb := (hall 0).1
      rw [rows3_start0, rows3_window0] at h0 hb
      rw [rows3_start1, rows3_window1] at h1
      rw [rows3_start2, rows3_window2] at h2
      refine ⟨by omega, Fin.ext (by omega), Fin.ext (by omega)⟩
    · exact absurd h (by simp)
  · rintro ⟨hv, rfl, rfl⟩
    have hall : ∀ c : Fin 3, 0 ≤ (rows3Dims N A B R wf).start (ix3 r a b) idx c + ((rows3Dims N A B R wf).window (ix3 r a b) c : Int)
        ∧ (rows3Dims N A B R wf).start (ix3 r a b) idx c + ((rows3Dims N A B R wf).window (ix3 r a b) c : Int)
          < ((⟨3, ![N, A, B]⟩ : Shape).size c : Int) := by
      intro c
      match c with
      | ⟨0, _⟩ =>
        show 0 ≤ (rows3Dims N A B R wf).start (ix3 r a b) idx 0 + ((rows3Dims N A B R wf).window (ix3 r a b) 0 : Int)
          ∧ (rows3Dims N A B R wf).start (ix3 r a b) idx 0 + ((rows3Dims N A B R wf).window (ix3 r a b) 0 : Int) < (N : Int)
        rw [rows3_start0, rows3_window0, hv]
        have := n.isLt
        omega
      | ⟨1, _⟩ =>
        show 0 ≤ (rows3Dims N A B R wf).start (ix3 r a b) idx 1 + ((rows3Dims N A B R wf).window (ix3 r a b) 1 : Int)
          ∧ (rows3Dims N A B R wf).start (ix3 r a b) idx 1 + ((rows3Dims N A B R wf).window (ix3 r a b) 1 : Int) < (A : Int)
        rw [rows3_start1, rows3_window1]
        have := a.isLt
        omega
      | ⟨2, _⟩ =>
        show 0 ≤ (rows3Dims N A B R wf).start (ix3 r a b) idx 2 + ((rows3Dims N A B R wf).window (ix3 r a b) 2 : Int)
          ∧ (rows3Dims N A B R wf).start (ix3 r a b) idx 2 + ((rows3Dims N A B R wf).window (ix3 r a b) 2 : Int) < (B : Int)
        rw [rows3_start2, rows3_window2]
        have := b.isLt
        omega
    rw [dif_pos hall]
    refine congrArg some (funext fun c => Fin.ext ?_)
    match c with
    | ⟨0, _⟩ =>
      show ((rows3Dims N A B R wf).start (ix3 r a b) idx 0 + ((rows3Dims N A B R wf).window (ix3 r a b) 0 : Int)).toNat = n.val
      rw [rows3_start0, rows3_window0, hv]
      omega
    | ⟨1, _⟩ =>
      show ((rows3Dims N A B R wf).start (ix3 r a b) idx 1 + ((rows3Dims N A B R wf).window (ix3 r a b) 1 : Int)).toNat = a.val
      rw [rows3_start1, rows3_window1]
      omega
    | ⟨2, _⟩ =>
      show ((rows3Dims N A B R wf).start (ix3 r a b) idx 2 + ((rows3Dims N A B R wf).window (ix3 r a b) 2 : Int)).toNat = b.val
      rw [rows3_start2, rows3_window2]
      omega

/-- AN ACCUMULATING SLAB SCATTER READ AT `(n, a, b)`: the operand entry plus the sum, over the scatter positions `r`
    whose word names slab `n`, of the update entries `(r, a, b)`. -/
theorem scatterAdd_rows3_apply (x : (⟨3, ![N, A, B]⟩ : Shape).Idx → EReal) (upd : (⟨3, ![R, A, B]⟩ : Shape).Idx → EReal)
    (n : Fin N) (a : Fin A) (b : Fin B) :
    Ideal.hostScatterAdd (rows3Dims N A B R wf) x idx upd (ix3 n a b)
      = x (ix3 n a b) + ∑ r : Fin R, if (idx (ix2 r (0 : Fin 1))).toInt = (n.val : Int) then upd (ix3 r a b) else 0 := by
  unfold Ideal.hostScatterAdd
  refine congrArg (x (ix3 n a b) + ·) ?_
  rw [Finset.sum_filter, sum_idx3]
  refine Finset.sum_congr rfl fun r _ => ?_
  by_cases hv : (idx (ix2 r (0 : Fin 1))).toInt = (n.val : Int)
  · rw [if_pos hv]
    rw [Finset.sum_eq_single a]
    · rw [Finset.sum_eq_single b]
      · rw [if_pos ((rows3_lands_iff wf idx r a b n a b).mpr ⟨hv, rfl, rfl⟩)]
      · intro b' _ hne
        rw [if_neg (fun h => hne ((rows3_lands_iff wf idx r a b' n a b).mp h).2.2)]
      · intro h; exact absurd (Finset.mem_univ b) h
    · intro a' _ hne
      refine Finset.sum_eq_zero fun b' _ => ?_
      rw [if_neg (fun h => hne ((rows3_lands_iff wf idx r a' b' n a b).mp h).2.1)]
    · intro h; exact absurd (Finset.mem_univ a) h
  · rw [if_neg hv]
    refine Finset.sum_eq_zero fun a' _ => Finset.sum_eq_zero fun b' _ => ?_
    rw [if_neg (fun h => hv ((rows3_lands_iff wf idx r a' b' n a b).mp h).1)]

end Rows3

end Cert.LibScatterAddRows3

end
-- ==== Proof.RefValue.lean ====
/-
  The reference program's result over the extended reals, index by index: scatter-add of the 16 x 128 rows of each
  source pixel into its target row, the same scatter of ones for the counts, the quotient by the clipped count, the
  matrix product with the weight and the bias.
-/
import proofs.«421746_j85023172592644_2_alg».proof.Proof.Gen.ReferenceIdeal.Read
import proofs.«421746_j85023172592644_2_alg».proof.Proof.Spec
import proofs.«421746_j85023172592644_2_alg».proof.Proof.LibScatterAddVec
import proofs.«421746_j85023172592644_2_alg».proof.Proof.LibScatterAddRows3
import Idealize.ShloMosaic.Lib.ValueIdx
import Idealize.ShloMosaic.Lib.IdealHost
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read

/-! ## The layout steps at coordinates -/

/-- The reshape to 16 batch slices followed by the swap of its first two axes reads the input at the index the
    specification names: batch slice `bc` splits as `(bc / 8, bc / 4 % 2, bc % 4)`. -/
theorem idx_x_eq (s : Fin 49152) (bc : Fin 16) (k : Fin 128) :
    idx_main_v0 (idx_main_v1 (ix3 s bc k)) = Cert.Spec.xIdx bc s k := by
  have hs := s.isLt
  have hb := bc.isLt
  have hk := k.isLt
  funext a
  refine Fin.ext ?_
  match a with
  | ⟨0, _⟩ =>
    show ((bc.val * 49152 + s.val) * 128 + k.val) / 50331648 = bc.val / 8
    omega
  | ⟨1, _⟩ =>
    show ((bc.val * 49152 + s.val) * 128 + k.val) / 25165824 % 2 = bc.val / 4 % 2
    omega
  | ⟨2, _⟩ =>
    show ((bc.val * 49152 + s.val) * 128 + k.val) / 6291456 % 4 = bc.val % 4
    omega
  | ⟨3, _⟩ =>
    show ((bc.val * 49152 + s.val) * 128 + k.val) / 128 % 49152 = s.val
    omega
  | ⟨4, _⟩ =>
    show ((bc.val * 49152 + s.val) * 128 + k.val) % 128 = k.val
    omega

/-- The rows handed to the scatter: row `s`, batch slice `bc`, channel `k` of the input. -/
theorem v1_at (x0 : (⟨S2x2x4x49152x128, .f32⟩ : BufTy).Contents (Elt Ideal)) (s : Fin 49152) (bc : Fin 16) (k : Fin 128) :
    val_main_v1 (F := Ideal) x0 (ix3 s bc k) = x0 (Cert.Spec.xIdx bc s k) := by
  rw [val_main_v1_apply, val_main_v0_apply, idx_x_eq]

/-- The column of ids handed to both scatters is the id vector. -/
theorem v3_at (x1 : (⟨S49152, .i32⟩ : BufTy).Contents (Elt Ideal)) (r : Fin 49152) :
    val_main_v3 (F := Ideal) x1 (ix2 r (0 : Fin 1)) = x1 (ix1 r) := by
  rw [val_main_v3_apply]
  refine congrArg x1 (funext fun a => ?_)
  match a with
  | ⟨0, _⟩ => rfl

/-- The same column, as the count scatter is handed it. -/
theorem v7_at (x1 : (⟨S49152, .i32⟩ : BufTy).Contents (Elt Ideal)) (r : Fin 49152) :
    val_main_v7 (F := Ideal) x1 (ix2 r (0 : Fin 1)) = x1 (ix1 r) := by
  rw [val_main_v7_apply]
  refine congrArg x1 (funext fun a => ?_)
  match a with
  | ⟨0, _⟩ => rfl

/-! ## The two scatters -/

/-- The scatter of rows into the zero array, at target row `T`: the sum of the source rows whose id is `T`. -/
theorem v4_at (x0 : (⟨S2x2x4x49152x128, .f32⟩ : BufTy).Contents (Elt Ideal)) (x1 : (⟨S49152, .i32⟩ : BufTy).Contents (Elt Ideal))
    (T : Fin 12288) (bc : Fin 16) (k : Fin 128) :
    val_main_v4 (F := Ideal) x0 x1 (ix3 T bc k) = Cert.Spec.segSum x0 x1 T bc k := by
  unfold val_main_v4 Host.scatterAdd
  rw [Ideal.hostScatterAdd_def]
  have hd : scatter_S12288x16x128_S49152x1_S49152x16x128_12_0_0_1
      = Cert.LibScatterAddRows3.rows3Dims 12288 16 128 49152
          Facts₀.scatter_S12288x16x128_S49152x1_S49152x16x128_12_0_0_1_wf := rfl
  rw [hd, Cert.LibScatterAddRows3.scatterAdd_rows3_apply, val_main_v2_apply, val_main_cst_apply, Ideal.ofBits_def,
    Ideal.ofBits_zero_f32, zero_add]
  unfold Cert.Spec.segSum
  refine Finset.sum_congr rfl fun r _ => ?_
  rw [v3_at, v1_at]

/-- The scatter of ones into the zero vector, at target row `T`: how many source rows have id `T`. -/
theorem v8_at (x1 : (⟨S49152, .i32⟩ : BufTy).Contents (Elt Ideal)) (T : Fin 12288) :
    val_main_v8 (F := Ideal) x1 (ix1 T) = Cert.Spec.cnt x1 T := by
  unfold val_main_v8 Host.scatterAdd
  rw [Ideal.hostScatterAdd_def]
  have hd : scatter_S12288_S49152x1_S49152_n_0_0_1
      = Cert.LibScatterAddVec.vecDims 12288 49152 Facts₀.scatter_S12288_S49152x1_S49152_n_0_0_1_wf := rfl
  rw [hd, Cert.LibScatterAddVec.scatterAdd_vec_apply, val_main_v6_apply, val_main_cst_1_apply, Ideal.ofBits_def,
    Ideal.ofBits_zero_f32, zero_add]
  unfold Cert.Spec.cnt
  refine Finset.sum_congr rfl fun r _ => ?_
  rw [v7_at, val_main_v5_apply, val_main_cst_0_apply, Ideal.ofBits_def, Ideal.ofBits_one_f32]

/-! ## The quotient, the product and the bias -/

/-- The quotient at target row `T`, batch slice `bc`, channel `k` is the pooled mean. -/
theorem v12_at (x0 : (⟨S2x2x4x49152x128, .f32⟩ : BufTy).Contents (Elt Ideal)) (x1 : (⟨S49152, .i32⟩ : BufTy).Contents (Elt Ideal))
    (T : Fin 12288) (bc : Fin 16) (k : Fin 128) :
    val_main_v12 (F := Ideal) x0 x1 (ix3 T bc k) = Cert.Spec.meanAt x0 x1 T bc k := by
  rw [val_main_v12_apply, Ideal.hostDivf_def, v4_at, val_main_v11_apply, val_main_v10_apply]
  have hi : idx_main_v10 (idx_main_v11 (ix3 T bc k)) = ix1 T := by
    funext a
    match a with
    | ⟨0, _⟩ => rfl
  rw [hi, val_main_v9_apply, Ideal.maximumf_def, v8_at, val_main_call0_v1_apply, val_main_call0_v0_apply,
    val_main_cst_2_apply, Ideal.ofBits_def]
  rfl

/-- The reference's result before its last reshape, of shape [16, 12288, 128], is the specification. -/
theorem ref_out3 (x0 : (⟨S2x2x4x49152x128, .f32⟩ : BufTy).Contents (Elt Ideal)) (x1 : (⟨S49152, .i32⟩ : BufTy).Contents (Elt Ideal))
    (x2 : (⟨S128x128, .f32⟩ : BufTy).Contents (Elt Ideal)) (x3 : (⟨S128, .f32⟩ : BufTy).Contents (Elt Ideal)) :
    val_main_v17 (F := Ideal) x0 x1 x2 x3 = Cert.Spec.out3 x0 x1 x2 x3 := by
  funext j
  obtain ⟨bc, T, e, rfl⟩ : ∃ (bc : Fin 16) (T : Fin 12288) (e : Fin 128), j = ix3 bc T e :=
    ⟨j 0, j 1, j 2, eq_ix3 j⟩
  show val_main_v17 (F := Ideal) x0 x1 x2 x3 (ix3 bc T e) = Cert.Spec.outAt x0 x1 x2 x3 bc T e
  -- the last swap of axes reads the sum of the product and the bias at (T, bc, e)
  have h17 : idx_main_v17 (ix3 bc T e) = ix3 T bc e := by
    funext a
    match a with
    | ⟨0, _⟩ => rfl
    | ⟨1, _⟩ => rfl
    | ⟨2, _⟩ => rfl
  rw [val_main_v17_apply, h17, val_main_v16_apply, Ideal.addf_def, val_main_v13_apply, val_main_v15_apply,
    val_main_v14_apply]
  unfold Cert.Spec.outAt
  -- the bias entry
  have hb : idx_main_v14 (idx_main_v15 (ix3 T bc e)) = ix1 e := by
    funext a
    match a with
    | ⟨0, _⟩ => rfl
  rw [hb]
  refine congrArg (· + x3 (ix1 e)) ?_
  -- the product, term by term over the contracted channel
  refine Finset.sum_congr rfl fun k _ => ?_
  have hl : lidx_main_v13 (ix3 T bc e) k = ix3 T bc k := by
    funext a
    match a with
    | ⟨0, _⟩ => rfl
    | ⟨1, _⟩ => rfl
    | ⟨2, _⟩ => rfl
  have hr : ridx_main_v13 (ix3 T bc e) k = ix2 e k := by
    funext a
    match a with
    | ⟨0, _⟩ => rfl
    | ⟨1, _⟩ => rfl
  rw [hl, hr, v12_at]

end Cert.ReferenceIdeal.RefValue

end
-- ==== Proof.PreDecode.lean ====
/-
  What the precondition says about the parent ids: every id, read as a signed word, lies in [0, 12288).
-/
import proofs.«421746_j85023172592644_2_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx
open Cert.Pre_finite_inputs

/-- The scalar shape has one index. -/
instance subsingleton_scalar_idx : Subsingleton S_.Idx := ⟨fun a b => funext fun d => d.elim0⟩

/-- If the printed precondition is all ones on the four arguments, every parent id is in range. -/
theorem range_of_fn [Cert.Pre_finite_inputs.Facts] (a0 : FVec Ideal S2x2x4x49152x128 .f32) (a1 : IVec S49152 32)
    (a2 : FVec Ideal S128x128 .f32) (a3 : FVec Ideal S128 .f32)
    (h : Cert.Pre_finite_inputs.fn (F := Ideal) a0 a1 a2 a3 = fun _ => 1#1) (s : Fin 49152) :
    0 ≤ (a1 (ix1 s)).toInt ∧ (a1 (ix1 s)).toInt < 12288 := by
  -- the predicate's one word is the conjunction of four "all" reductions; the last is over the ids
  have h0 := congrFun h ix0
  dsimp only [Cert.Pre_finite_inputs.fn, Cert.Pre_finite_inputs.fn_part1] at h0
  obtain ⟨_, hall⟩ := IntOp.andi_eq_one.1 h0
  -- every entry of the reduced array is one: at s it is the conjunction of the two signed comparisons
  have hs := Host.reduce_andi_all _ _ _ _ _ hall (ix1 s)
  obtain ⟨hge, hlt⟩ := IntOp.andi_eq_one.1 hs
  have hge' : (0#32).toInt ≤ (a1 (ix1 s)).toInt := IntOp.cmpi_sge.1 hge
  have hlt' : (a1 (ix1 s)).toInt < (12288#32).toInt := IntOp.cmpi_slt.1 hlt
  have e0 : (0#32).toInt = 0 := by decide
  have e1 : (12288#32).toInt = 12288 := by decide
  rw [e0] at hge'
  rw [e1] at hlt'
  exact ⟨hge', hlt'⟩

end Cert.PreDecode

end
-- ==== Proof.lean ====
/-
  The certificate of the HEALPix downsample kernel against its reference, over the extended reals.

  Both programs pool 49152 source rows into 12288 target rows by the parent map (sum of the rows naming a target,
  divided by the count clipped below), then apply a 128 x 128 linear map and a bias. The kernel does the pooling as an
  indicator matrix product accumulated over 96 source tiles with the division as a product by a reciprocal column, on
  parent ids clamped into range; the reference scatters and drops ids out of range. Under the precondition (finite
  floats, every parent id in [0, 12288)) the clamp is the identity and the two results are one function of the
  arguments (`Cert.Spec.out3`, reshaped): the kernel side by the two regions' outputs composed through the host
  stretches, the reference side by reading its operations at an index.
-/
import proofs.«421746_j85023172592644_2_alg».proof.Defs
import proofs.«421746_j85023172592644_2_alg».proof.Proof.Gen.Kernel
import proofs.«421746_j85023172592644_2_alg».proof.Proof.Gen.KernelIdeal
import proofs.«421746_j85023172592644_2_alg».proof.Proof.Gen.ReferenceIdeal
import proofs.«421746_j85023172592644_2_alg».proof.Proof.Gen.ReferenceIdeal.Run
import proofs.«421746_j85023172592644_2_alg».proof.Proof.Gen.ReferenceIdeal.Read
import proofs.«421746_j85023172592644_2_alg».proof.Proof.Gen.Pre_finite_inputs
import proofs.«421746_j85023172592644_2_alg».proof.Proof.RunMain
import proofs.«421746_j85023172592644_2_alg».proof.Proof.BitsRunMain
import proofs.«421746_j85023172592644_2_alg».proof.Proof.KernelValue
import proofs.«421746_j85023172592644_2_alg».proof.Proof.RefValue
import proofs.«421746_j85023172592644_2_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel program as printed runs to the end and leaves its arguments unchanged. -/
theorem frame_k : Cert.frame_Kernel := fun m ρ _ =>
  (θ_run Cert.Kernel.defs _ _).mono (fun _ h c => (h c).2) (Cert.Kernel.Run.run_main (F := Bits) m ρ)

/-- So does its idealization. -/
theorem frame_ki : Cert.frame_KernelIdeal := fun m ρ _ =>
  (θ_run Cert.KernelIdeal.defs _ _).mono (fun _ h c => (h c).2) (Cert.KernelIdeal.Run.run_main (F := Ideal) m ρ)

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the specification, reshaped. -/
theorem algebraic : Cert.algebraic_KernelIdeal_ReferenceIdeal := by
  intro m ρ m' ρ' hpre hagree
  refine ⟨fun c => shapeCast Cert.KernelIdeal.S2x2x4x12288x128
      (Cert.Spec.out3 (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      Cert.KernelIdeal.Facts₀.shapeCasts_S16x12288x128_S2x2x4x12288x128, ?_, ?_⟩
  · refine (θ_run Cert.KernelIdeal.defs _ _).mono (fun r h c => ⟨(h c).1.trans ?_, (h c).2⟩)
      (Cert.KernelIdeal.Run.run_main (F := Ideal) m ρ)
    exact Cert.KernelIdeal.Run.kernel_result m c (fun s => Cert.PreDecode.range_of_fn _ _ _ _ (hpre c) s)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2, Cert.ReferenceIdeal.Read.val_main_v18_eq]
    unfold Cert.ReferenceIdeal.Read.val_main_v18
    rw [Cert.ReferenceIdeal.RefValue.ref_out3]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
